-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S600000x128 .f32) (main_arg2 : IVec S600000 32) (main_arg3 : IVec S600000 32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S600000x1 : Shape := ⟨2, ![600000, 1]⟩
abbrev S1x128 : Shape := ⟨2, ![1, 128]⟩
abbrev S3000x128 : Shape := ⟨2, ![3000, 128]⟩
abbrev S4000x128 : Shape := ⟨2, ![4000, 128]⟩

abbrev nBuf : Space → Nat
  | .hbm => 52
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S100000x128, .f32⟩
  | .hbm, ⟨44, _⟩ => ⟨S600000x1, .i32⟩
  | .hbm, ⟨45, _⟩ => ⟨S100000x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x128, .f32⟩
  | .local _ .vmem, ⟨5, _⟩ => ⟨S3000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S3000x128, .f32⟩
  | .local _ .vmem, ⟨15, _⟩ => ⟨S3000x128, .f32⟩
  | .local _ .vmem, ⟨16, _⟩ => ⟨S3000x128, .f32⟩
  | .local _ .vmem, ⟨17, _⟩ => ⟨S3000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S4000x128, .f32⟩
  | .local _ .vmem, ⟨30, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  gather_S100000x128_S600000x1_S600000x128_1_0_n_n_0_1_1128_wf : GatherDims.WF S100000x128 S600000x1 S600000x128 [1] [0] [] [0] [] 1 ![1, 128]
  dot_S3000x128_S128x128_S3000x128_1_0_0_1_n_n_wf : DotDims.WF S3000x128 S128x128 S3000x128 [1] [0] [0] [1] [] []
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S600000x128.size a
  hwx0_2 : ∀ i : grid0.Coords, EltTy.bits .f32 = 32 ∨ (Rect.block (s := S600000x128) S3000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3000x128.size a ≤ S600000x128.size a
  hwx0_11 : ∀ i : grid0.Coords, EltTy.bits .f32 = 32 ∨ (Rect.block (s := S600000x128) S3000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3000x128.size a ≤ S600000x128.size a
  hwx0_12 : ∀ i : grid0.Coords, EltTy.bits .f32 = 32 ∨ (Rect.block (s := S600000x128) S3000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v6) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S3000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S3000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S600000 : Shape := ⟨1, ![600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S100000x256 : Shape := ⟨2, ![100000, 256]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x384, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S600000x128, .f32⟩
  | .hbm, ⟨41, _⟩ => ⟨S600000x128, .f32⟩
  | .hbm, ⟨42, _⟩ => ⟨S600000x128, .f32⟩
  | .hbm, ⟨43, _⟩ => ⟨S1x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S1x128, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S100000x256, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The graph-network block as mathematics, at the exact-real instance.

  One edge's update is a three-layer perceptron of three 128-wide rows (the sender's features, the receiver's features, the
  edge's own): the first layer multiplies each row by its own 128 x 128 slice of the 384 x 128 first-layer weights and adds
  the three products and the bias, a rectifier follows the first and the second layer, and the third layer is affine.
  One node's update is the same perceptron of two rows (the node's features and the sum of the updates of the edges that
  point at it). Each result adds its input row back (the residual).

  Everything is a function of ROWS (`Fin 128 → EReal`) and 128 x 128 MATRICES, so that a block of rows and the whole
  array of rows are the same function read at different row numbers.  The only law used later is that a sum over the
  concatenated 384 (or 256) columns is the sum of the sums over the three (two) 128-column pieces, which holds in any
  commutative monoid — the extended reals' addition is one — and so needs no finiteness.
-/
import Idealize.ShloMosaic.PureOps.Ideal
import Idealize.ShloMosaic.Lib.ValueIdx

noncomputable section

open scoped BigOperators

namespace Cert.GraphNet

open Idealize.ShloMosaic Idealize.ShloMosaic.ValueIdx

/-- A feature row. -/
abbrev Row : Type := Fin 128 → EReal
/-- A 128 x 128 weight matrix, row index first. -/
abbrev Mat : Type := Fin 128 → Fin 128 → EReal

/-- The extended real the f32 zero word denotes: the rectifier's threshold in both programs. -/
abbrev zeroF : EReal := Ideal.ofBits .f32 0x00000000#32

/-- Row times matrix, at column `j`. -/
def dot (x : Row) (W : Mat) (j : Fin 128) : EReal := ∑ k : Fin 128, x k * W k j
/-- An affine layer: `x · W + b`. -/
def dense (x : Row) (W : Mat) (b : Row) : Row := fun j => dot x W j + b j
/-- The rectifier, entry by entry. -/
def relu (x : Row) : Row := fun j => max (x j) zeroF

/-- The edge perceptron of a sender row, a receiver row and an edge row (before the residual). -/
def edgeRow (s r e : Row) (Ws Wr We W2 W3 : Mat) (b1 b2 b3 : Row) : Row :=
  dense (relu (dense (relu fun j => ((dot s Ws j + dot r Wr j) + dot e We j) + b1 j) W2 b2)) W3 b3

/-- The node perceptron of a node row and its aggregated edge updates (before the residual). -/
def nodeRow (n a : Row) (Wn Wa W2 W3 : Mat) (b1 b2 b3 : Row) : Row :=
  dense (relu (dense (relu fun j => (dot n Wn j + dot a Wa j) + b1 j) W2 b2)) W3 b3

/-- Row `r` of an `[n, 128]` array. -/
def rowAt {n : Nat} (x : (⟨2, ![n, 128]⟩ : Shape).Idx → EReal) (r : Fin n) : Row := fun k => x (ix2 r k)
/-- The 128 rows of an `[n, 128]` weight array that start at row `off`, as a matrix. -/
def matAt {n : Nat} (W : (⟨2, ![n, 128]⟩ : Shape).Idx → EReal) (off : Nat) (h : off + 128 ≤ n) : Mat :=
  fun k j => W (ix2 (⟨off + k.val, by have := k.isLt; omega⟩ : Fin n) j)
/-- A `[128]` bias as a row. -/
def vecAt (b : (⟨1, ![128]⟩ : Shape).Idx → EReal) : Row := fun j => b (ix1 j)

/-- Every edge's update: entry `(e, j)` is the edge perceptron of rows `e` of the three feature arrays, at column `j`. -/
def edgeUpd (sf rf ef : (⟨2, ![600000, 128]⟩ : Shape).Idx → EReal) (Ws Wr We W2 W3 : Mat) (b1 b2 b3 : Row) :
    (⟨2, ![600000, 128]⟩ : Shape).Idx → EReal :=
  fun i => edgeRow (rowAt sf ⟨(i 0).val, idx2_lt0 i⟩) (rowAt rf ⟨(i 0).val, idx2_lt0 i⟩) (rowAt ef ⟨(i 0).val, idx2_lt0 i⟩)
    Ws Wr We W2 W3 b1 b2 b3 ⟨(i 1).val, idx2_lt1 i⟩

/-- The new edge features: the update plus the edge's own features. -/
def newEdges (sf rf ef : (⟨2, ![600000, 128]⟩ : Shape).Idx → EReal) (Ws Wr We W2 W3 : Mat) (b1 b2 b3 : Row) :
    (⟨2, ![600000, 128]⟩ : Shape).Idx → EReal :=
  fun i => edgeUpd sf rf ef Ws Wr We W2 W3 b1 b2 b3 i + ef i

/-- The new node features: the node perceptron of rows `n` of the node features and of the aggregate, plus the node's own
    features. -/
def newNodes (nf agg : (⟨2, ![100000, 128]⟩ : Shape).Idx → EReal) (Wn Wa W2 W3 : Mat) (b1 b2 b3 : Row) :
    (⟨2, ![100000, 128]⟩ : Shape).Idx → EReal :=
  fun i => nodeRow (rowAt nf ⟨(i 0).val, idx2_lt0 i⟩) (rowAt agg ⟨(i 0).val, idx2_lt0 i⟩) Wn Wa W2 W3 b1 b2 b3
    ⟨(i 1).val, idx2_lt1 i⟩ + nf i

/-- A sum over 384 columns is the sum of the sums over its three runs of 128. -/
theorem sum_384 {M : Type*} [AddCommMonoid M] (f : Fin 384 → M) :
    ∑ q : Fin 384, f q
      = ((∑ k : Fin 128, f ⟨k.val, by have := k.isLt; omega⟩) + ∑ k : Fin 128, f ⟨128 + k.val, by have := k.isLt; omega⟩)
        + ∑ k : Fin 128, f ⟨256 + k.val, by have := k.isLt; omega⟩ := by
  have h1 := Fin.sum_univ_add (M := M) (a := 256) (b := 128) f
  have h2 := Fin.sum_univ_add (M := M) (a := 128) (b := 128) fun i : Fin (128 + 128) => f (Fin.castAdd 128 i)
  rw [h1, h2]
  rfl

/-- A sum over 256 columns is the sum of the sums over its two runs of 128. -/
theorem sum_256 {M : Type*} [AddCommMonoid M] (f : Fin 256 → M) :
    ∑ q : Fin 256, f q
      = (∑ k : Fin 128, f ⟨k.val, by have := k.isLt; omega⟩) + ∑ k : Fin 128, f ⟨128 + k.val, by have := k.isLt; omega⟩ := by
  have h1 := Fin.sum_univ_add (M := M) (a := 128) (b := 128) f
  rw [h1]
  rfl

end Cert.GraphNet

end
-- ==== Proof.HostEntry0.lean ====
/-
  What the edge region finds in its arrays.  Between the launch and the first region the host gathers, for every edge, the
  node-feature row its sender word names and the row its receiver word names (a negative word counts from the end), cuts
  the 384 x 128 first-layer weights into three 128 x 128 matrices, and lays each bias out as a single row; it writes no
  argument array.
-/
import proofs.«120930_j73684458930837_1_alg».proof.Proof.Gen.KernelIdeal.Frame
import proofs.«120930_j73684458930837_1_alg».proof.Proof.Spec
import Idealize.ShloMosaic.Lib.StableHlo.Run

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphNet

/-- The index words as the gather takes them: a negative word has the number of nodes added, and the words stand in a
    column. -/
def normIdx (x : IVec S600000 32) : IVec S600000x1 32 :=
  broadcastInDim S600000x1 ![0] bcast_S600000_S600000x1_0
    (select (cmpi .slt x (broadcastInDim S600000 ![] bcast_S_S600000 (constantI S_ 32 0#32)))
      (addi x (broadcastInDim S600000 ![] bcast_S_S600000 (constantI S_ 32 100000#32))) x)

/-- For every edge, the node-feature row its index word names. -/
def gatherRows (nf : S100000x128.Idx → EReal) (x : IVec S600000 32) : S600000x128.Idx → EReal :=
  Host.gather gather_S100000x128_S600000x1_S600000x128_1_0_n_n_0_1_1128 nf (normIdx x)

/-- For every node, the sum of the update rows of the edges whose index word names it. -/
def aggregate (x : IVec S600000 32) (u : S600000x128.Idx → EReal) : S100000x128.Idx → EReal :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 x) u

variable (m : (ℓ : Loc nD τ sig) → Buf (Elt Ideal) ℓ) (ρ : Dev nD → PrngReg)

/-! ## The computed arrays -/

theorem V1_v6 (c : Dev nD) :
    (V1 m ρ c main_v6 : S600000x128.Idx → EReal) = gatherRows (m ((c.tc : Thread nD τ).loc main_arg0)) (m ((c.tc : Thread nD τ).loc main_arg2)) := by
  show StableHlo.after hostOps0 (W0 m ρ c) (Proc.devRef .tc main_v6) = _
  after_results
  all_goals rfl
theorem V1_v13 (c : Dev nD) :
    (V1 m ρ c main_v13 : S600000x128.Idx → EReal) = gatherRows (m ((c.tc : Thread nD τ).loc main_arg0)) (m ((c.tc : Thread nD τ).loc main_arg3)) := by
  show StableHlo.after hostOps0 (W0 m ρ c) (Proc.devRef .tc main_v13) = _
  after_results
  all_goals rfl
theorem V1_v14 (c : Dev nD) :
    (V1 m ρ c main_v14 : S128x128.Idx → EReal) = extractStridedSlice S128x128 ![0, 0] (m ((c.tc : Thread nD τ).loc main_arg4)) slices_S384x128_S128x128_0_0 := by
  show StableHlo.after hostOps0 (W0 m ρ c) (Proc.devRef .tc main_v14) = _
  after_results
  all_goals rfl
theorem V1_v15 (c : Dev nD) :
    (V1 m ρ c main_v15 : S128x128.Idx → EReal) = extractStridedSlice S128x128 ![128, 0] (m ((c.tc : Thread nD τ).loc main_arg4)) slices_S384x128_S128x128_128_0 := by
  show StableHlo.after hostOps0 (W0 m ρ c) (Proc.devRef .tc main_v15) = _
  after_results
  all_goals rfl
theorem V1_v16 (c : Dev nD) :
    (V1 m ρ c main_v16 : S128x128.Idx → EReal) = extractStridedSlice S128x128 ![256, 0] (m ((c.tc : Thread nD τ).loc main_arg4)) slices_S384x128_S128x128_256_0 := by
  show StableHlo.after hostOps0 (W0 m ρ c) (Proc.devRef .tc main_v16) = _
  after_results
  all_goals rfl
theorem V1_v17 (c : Dev nD) :
    (V1 m ρ c main_v17 : S1x128.Idx → EReal) = shapeCast S1x128 (m ((c.tc : Thread nD τ).loc main_arg5)) shapeCasts_S128_S1x128 := by
  show StableHlo.after hostOps0 (W0 m ρ c) (Proc.devRef .tc main_v17) = _
  after_results
  all_goals rfl
theorem V1_v18 (c : Dev nD) :
    (V1 m ρ c main_v18 : S1x128.Idx → EReal) = shapeCast S1x128 (m ((c.tc : Thread nD τ).loc main_arg7)) shapeCasts_S128_S1x128 := by
  show StableHlo.after hostOps0 (W0 m ρ c) (Proc.devRef .tc main_v18) = _
  after_results
  all_goals rfl
theorem V1_v19 (c : Dev nD) :
    (V1 m ρ c main_v19 : S1x128.Idx → EReal) = shapeCast S1x128 (m ((c.tc : Thread nD τ).loc main_arg9)) shapeCasts_S128_S1x128 := by
  show StableHlo.after hostOps0 (W0 m ρ c) (Proc.devRef .tc main_v19) = _
  after_results
  all_goals rfl

/-! ## The argument arrays, untouched -/

theorem V1_arg0 (c : Dev nD) :
    (V1 m ρ c main_arg0 : S100000x128.Idx → EReal) = (m ((c.tc : Thread nD τ).loc main_arg0)) := by
  show StableHlo.after hostOps0 (W0 m ρ c) (Proc.devRef .tc main_arg0) = _
  after_results
  all_goals rfl
theorem V1_arg1 (c : Dev nD) :
    (V1 m ρ c main_arg1 : S600000x128.Idx → EReal) = (m ((c.tc : Thread nD τ).loc main_arg1)) := by
  show StableHlo.after hostOps0 (W0 m ρ c) (Proc.devRef .tc main_arg1) = _
  after_results
  all_goals rfl
theorem V1_arg3 (c : Dev nD) :
    (V1 m ρ c main_arg3 : IVec S600000 32) = (m ((c.tc : Thread nD τ).loc main_arg3)) := by
  show StableHlo.after hostOps0 (W0 m ρ c) (Proc.devRef .tc main_arg3) = _
  after_results
  all_goals rfl
theorem V1_arg6 (c : Dev nD) :
    (V1 m ρ c main_arg6 : S128x128.Idx → EReal) = (m ((c.tc : Thread nD τ).loc main_arg6)) := by
  show StableHlo.after hostOps0 (W0 m ρ c) (Proc.devRef .tc main_arg6) = _
  after_results
  all_goals rfl
theorem V1_arg8 (c : Dev nD) :
    (V1 m ρ c main_arg8 : S128x128.Idx → EReal) = (m ((c.tc : Thread nD τ).loc main_arg8)) := by
  show StableHlo.after hostOps0 (W0 m ρ c) (Proc.devRef .tc main_arg8) = _
  after_results
  all_goals rfl
theorem V1_arg10 (c : Dev nD) :
    (V1 m ρ c main_arg10 : S256x128.Idx → EReal) = (m ((c.tc : Thread nD τ).loc main_arg10)) := by
  show StableHlo.after hostOps0 (W0 m ρ c) (Proc.devRef .tc main_arg10) = _
  after_results
  all_goals rfl
theorem V1_arg11 (c : Dev nD) :
    (V1 m ρ c main_arg11 : S128.Idx → EReal) = (m ((c.tc : Thread nD τ).loc main_arg11)) := by
  show StableHlo.after hostOps0 (W0 m ρ c) (Proc.devRef .tc main_arg11) = _
  after_results
  all_goals rfl
theorem V1_arg12 (c : Dev nD) :
    (V1 m ρ c main_arg12 : S128x128.Idx → EReal) = (m ((c.tc : Thread nD τ).loc main_arg12)) := by
  show StableHlo.after hostOps0 (W0 m ρ c) (Proc.devRef .tc main_arg12) = _
  after_results
  all_goals rfl
theorem V1_arg13 (c : Dev nD) :
    (V1 m ρ c main_arg13 : S128.Idx → EReal) = (m ((c.tc : Thread nD τ).loc main_arg13)) := by
  show StableHlo.after hostOps0 (W0 m ρ c) (Proc.devRef .tc main_arg13) = _
  after_results
  all_goals rfl
theorem V1_arg14 (c : Dev nD) :
    (V1 m ρ c main_arg14 : S128x128.Idx → EReal) = (m ((c.tc : Thread nD τ).loc main_arg14)) := by
  show StableHlo.after hostOps0 (W0 m ρ c) (Proc.devRef .tc main_arg14) = _
  after_results
  all_goals rfl
theorem V1_arg15 (c : Dev nD) :
    (V1 m ρ c main_arg15 : S128.Idx → EReal) = (m ((c.tc : Thread nD τ).loc main_arg15)) := by
  show StableHlo.after hostOps0 (W0 m ρ c) (Proc.devRef .tc main_arg15) = _
  after_results
  all_goals rfl

end Cert.KernelIdeal.Fold

end
-- ==== Proof.HostEntry1.lean ====
/-
  What the node region finds in its arrays.  The edge region writes only its two outputs, so every argument array is
  still as launched when it ends; the host then adds every edge's update row into the row of the node its receiver word
  names, cuts the 256 x 128 node weights into two 128 x 128 matrices and lays each node bias out as a single row.
-/
import proofs.«120930_j73684458930837_1_alg».proof.Proof.HostEntry0

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphNet

variable (m : (ℓ : Loc nD τ sig) → Buf (Elt Ideal) ℓ) (ρ : Dev nD → PrngReg)

/-! ## The argument arrays when the edge region has ended -/

theorem W2_arg0 (c : Dev nD) :
    (W2 m ρ c (Proc.devRef .tc main_arg0) : S100000x128.Idx → EReal) = (m ((c.tc : Thread nD τ).loc main_arg0)) :=
  (W2_of_ne m ρ c main_arg0 (by decide)).trans (V1_arg0 m ρ c)
theorem W2_arg3 (c : Dev nD) :
    (W2 m ρ c (Proc.devRef .tc main_arg3) : IVec S600000 32) = (m ((c.tc : Thread nD τ).loc main_arg3)) :=
  (W2_of_ne m ρ c main_arg3 (by decide)).trans (V1_arg3 m ρ c)
theorem W2_arg10 (c : Dev nD) :
    (W2 m ρ c (Proc.devRef .tc main_arg10) : S256x128.Idx → EReal) = (m ((c.tc : Thread nD τ).loc main_arg10)) :=
  (W2_of_ne m ρ c main_arg10 (by decide)).trans (V1_arg10 m ρ c)
theorem W2_arg11 (c : Dev nD) :
    (W2 m ρ c (Proc.devRef .tc main_arg11) : S128.Idx → EReal) = (m ((c.tc : Thread nD τ).loc main_arg11)) :=
  (W2_of_ne m ρ c main_arg11 (by decide)).trans (V1_arg11 m ρ c)
theorem W2_arg12 (c : Dev nD) :
    (W2 m ρ c (Proc.devRef .tc main_arg12) : S128x128.Idx → EReal) = (m ((c.tc : Thread nD τ).loc main_arg12)) :=
  (W2_of_ne m ρ c main_arg12 (by decide)).trans (V1_arg12 m ρ c)
theorem W2_arg13 (c : Dev nD) :
    (W2 m ρ c (Proc.devRef .tc main_arg13) : S128.Idx → EReal) = (m ((c.tc : Thread nD τ).loc main_arg13)) :=
  (W2_of_ne m ρ c main_arg13 (by decide)).trans (V1_arg13 m ρ c)
theorem W2_arg14 (c : Dev nD) :
    (W2 m ρ c (Proc.devRef .tc main_arg14) : S128x128.Idx → EReal) = (m ((c.tc : Thread nD τ).loc main_arg14)) :=
  (W2_of_ne m ρ c main_arg14 (by decide)).trans (V1_arg14 m ρ c)
theorem W2_arg15 (c : Dev nD) :
    (W2 m ρ c (Proc.devRef .tc main_arg15) : S128.Idx → EReal) = (m ((c.tc : Thread nD τ).loc main_arg15)) :=
  (W2_of_ne m ρ c main_arg15 (by decide)).trans (V1_arg15 m ρ c)

/-! ## The node region's entry contents -/

theorem V3_arg0 (c : Dev nD) :
    (V3 m ρ c main_arg0 : S100000x128.Idx → EReal) = (m ((c.tc : Thread nD τ).loc main_arg0)) := by
  show StableHlo.after hostOps1 (W2 m ρ c) (Proc.devRef .tc main_arg0) = _
  after_results
  exact W2_arg0 m ρ c
theorem V3_arg12 (c : Dev nD) :
    (V3 m ρ c main_arg12 : S128x128.Idx → EReal) = (m ((c.tc : Thread nD τ).loc main_arg12)) := by
  show StableHlo.after hostOps1 (W2 m ρ c) (Proc.devRef .tc main_arg12) = _
  after_results
  exact W2_arg12 m ρ c
theorem V3_arg14 (c : Dev nD) :
    (V3 m ρ c main_arg14 : S128x128.Idx → EReal) = (m ((c.tc : Thread nD τ).loc main_arg14)) := by
  show StableHlo.after hostOps1 (W2 m ρ c) (Proc.devRef .tc main_arg14) = _
  after_results
  exact W2_arg14 m ρ c
theorem V3_v23 (c : Dev nD) :
    (V3 m ρ c main_v23 : S100000x128.Idx → EReal) = aggregate (m ((c.tc : Thread nD τ).loc main_arg3)) (W2 m ρ c (Proc.devRef .tc main_v20_1)) := by
  show StableHlo.after hostOps1 (W2 m ρ c) (Proc.devRef .tc main_v23) = _
  after_results
  rw [W2_arg3 m ρ c]
  all_goals rfl
theorem V3_v24 (c : Dev nD) :
    (V3 m ρ c main_v24 : S128x128.Idx → EReal) = extractStridedSlice S128x128 ![0, 0] (m ((c.tc : Thread nD τ).loc main_arg10)) slices_S256x128_S128x128_0_0 := by
  show StableHlo.after hostOps1 (W2 m ρ c) (Proc.devRef .tc main_v24) = _
  after_results
  rw [W2_arg10 m ρ c]
theorem V3_v25 (c : Dev nD) :
    (V3 m ρ c main_v25 : S128x128.Idx → EReal) = extractStridedSlice S128x128 ![128, 0] (m ((c.tc : Thread nD τ).loc main_arg10)) slices_S256x128_S128x128_128_0 := by
  show StableHlo.after hostOps1 (W2 m ρ c) (Proc.devRef .tc main_v25) = _
  after_results
  rw [W2_arg10 m ρ c]
theorem V3_v26 (c : Dev nD) :
    (V3 m ρ c main_v26 : S1x128.Idx → EReal) = shapeCast S1x128 (m ((c.tc : Thread nD τ).loc main_arg11)) shapeCasts_S128_S1x128 := by
  show StableHlo.after hostOps1 (W2 m ρ c) (Proc.devRef .tc main_v26) = _
  after_results
  rw [W2_arg11 m ρ c]
  all_goals rfl
theorem V3_v27 (c : Dev nD) :
    (V3 m ρ c main_v27 : S1x128.Idx → EReal) = shapeCast S1x128 (m ((c.tc : Thread nD τ).loc main_arg13)) shapeCasts_S128_S1x128 := by
  show StableHlo.after hostOps1 (W2 m ρ c) (Proc.devRef .tc main_v27) = _
  after_results
  rw [W2_arg13 m ρ c]
  all_goals rfl
theorem V3_v28 (c : Dev nD) :
    (V3 m ρ c main_v28 : S1x128.Idx → EReal) = shapeCast S1x128 (m ((c.tc : Thread nD τ).loc main_arg15)) shapeCasts_S128_S1x128 := by
  show StableHlo.after hostOps1 (W2 m ρ c) (Proc.devRef .tc main_v28) = _
  after_results
  rw [W2_arg15 m ρ c]
  all_goals rfl

/-- The new-edges buffer is not written after the edge region. -/
theorem W4_v20_0 (c : Dev nD) :
    W4 m ρ c (Proc.devRef .tc main_v20_0) = W2 m ρ c (Proc.devRef .tc main_v20_0) := by
  rw [W4_of_ne m ρ c main_v20_0 (by decide)]
  show StableHlo.after hostOps1 (W2 m ρ c) (Proc.devRef .tc main_v20_0) = _
  after_results

end Cert.KernelIdeal.Fold

end
-- ==== Proof.EdgeRegion.lean ====
/-
  What the edge kernel's region leaves in its two output arrays, whatever the buffers hold when the region is entered:
  every one of its 200 grid points reads rows 3000·t … 3000·t + 2999 of the three feature arrays and the whole of each
  weight and bias array, and writes the same rows of the two outputs; row by row the body is the edge perceptron.
-/
import proofs.«120930_j73684458930837_1_alg».proof.Proof.Gen.KernelIdeal.Frame
import proofs.«120930_j73684458930837_1_alg».proof.Proof.Spec
import Idealize.ShloMosaic.Lib.Pipeline.Value
import Idealize.ShloMosaic.PureOps.Ideal.Laws

noncomputable section

namespace Cert.KernelIdeal.EdgeRegion

open Cert.KernelIdeal Cert.KernelIdeal.Gen Idealize.ShloMosaic Idealize.ShloMosaic.TcCoe Idealize.SL.Sem
open Idealize.ShloMosaic.ValueIdx Cert.GraphNet
open Idealize.ShloMosaic.Pipeline (Dat)
open scoped BigOperators

/-! ## A 3000 x 128 by 128 x 128 product into the zero accumulator, at an index -/

theorem mm_lhs_0 (i : S3000x128.Idx) (q : dot_S3000x128_S128x128_S3000x128_1_0_0_1_n_n.contr.Idx) :
    (dot_S3000x128_S128x128_S3000x128_1_0_0_1_n_n.lhsIdx i q 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
theorem mm_lhs_1 (i : S3000x128.Idx) (q : dot_S3000x128_S128x128_S3000x128_1_0_0_1_n_n.contr.Idx) :
    (dot_S3000x128_S128x128_S3000x128_1_0_0_1_n_n.lhsIdx i q 1).val = (q ⟨0, by decide⟩).val :=
  dot_S3000x128_S128x128_S3000x128_1_0_0_1_n_n.lhsIdx_val_of_single rfl i q
theorem mm_rhs_0 (i : S3000x128.Idx) (q : dot_S3000x128_S128x128_S3000x128_1_0_0_1_n_n.contr.Idx) :
    (dot_S3000x128_S128x128_S3000x128_1_0_0_1_n_n.rhsIdx i q 0).val = (q ⟨0, by decide⟩).val :=
  dot_S3000x128_S128x128_S3000x128_1_0_0_1_n_n.rhsIdx_val_of_single rfl i q
theorem mm_rhs_1 (i : S3000x128.Idx) (q : dot_S3000x128_S128x128_S3000x128_1_0_0_1_n_n.contr.Idx) :
    (dot_S3000x128_S128x128_S3000x128_1_0_0_1_n_n.rhsIdx i q 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

/-- Entry `(r, j)` of the product is the sum over the 128 shared coordinates of row `r` of the left factor times column
    `j` of the right. -/
theorem mm_apply (lhs : FVec Ideal S3000x128 .bf16) (rhs : FVec Ideal S128x128 .bf16) (r : Fin 3000) (j : Fin 128) :
    matmul dot_S3000x128_S128x128_S3000x128_1_0_0_1_n_n none lhs rhs (constant (F := Ideal) S3000x128 .f32 0x00000000#32) (ix2 r j)
      = ∑ k : Fin 128, lhs (ix2 r k) * rhs (ix2 k j) := by
  simp only [matmul]
  rw [Ideal.matmul_constant_zero_apply, ← Equiv.sum_comp (ValueIdx.contrEquiv1 dot_S3000x128_S128x128_S3000x128_1_0_0_1_n_n 128 rfl rfl).symm]
  refine Finset.sum_congr rfl fun k _ => ?_
  have hk := ValueIdx.contrEquiv1_symm_val dot_S3000x128_S128x128_S3000x128_1_0_0_1_n_n 128 rfl rfl k
  have el : dot_S3000x128_S128x128_S3000x128_1_0_0_1_n_n.lhsIdx (ix2 r j) ((ValueIdx.contrEquiv1 dot_S3000x128_S128x128_S3000x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S3000x128_S128x128_S3000x128_1_0_0_1_n_n.rhsIdx (ix2 r j) ((ValueIdx.contrEquiv1 dot_S3000x128_S128x128_S3000x128_1_0_0_1_n_n 128 rfl rfl).symm k) = ix2 k j := funext fun a => Fin.ext (by
    match a with
    | ⟨0, _⟩ => exact (mm_rhs_0 _ _).trans hk
    | ⟨1, _⟩ => exact mm_rhs_1 _ _)
  rw [el, er]

/-! ## The body's arithmetic, row by row -/

/-- A 128 x 128 block as a matrix. -/
def matOf (W : Vec Ideal S128x128 .f32) : Mat := fun k j => W (ix2 k j)
/-- A 1 x 128 block as a row. -/
def biasOf (b : Vec Ideal S1x128 .f32) : Row := fun j => b (ix2 0 j)

/-- The bias block spread over the 3000 rows reads its own entry of the column. -/
theorem bias_apply (b : FVec Ideal S1x128 .f32) (r : Fin 3000) (j : Fin 128) :
    broadcastTo S3000x128 b broadcasts_S1x128_S3000x128 (ix2 r j) = b (ix2 0 j) :=
  broadcastTo_apply b broadcasts_S1x128_S3000x128 (ix2 r j) (ix2 0 j) fun a => by
    match a with
    | ⟨0, _⟩ => rfl
    | ⟨1, _⟩ => rfl

/-- The first two layers of the edge perceptron, before the second rectifier: entry `(r, j)` of the body's intermediate
    block is the second affine layer of the rectified first layer of rows `r` of the three feature blocks. -/
theorem pay3_apply (x0 x1 x2 : Vec Ideal S3000x128 .f32) (w3 w4 w5 : Vec Ideal S128x128 .f32) (b6 : Vec Ideal S1x128 .f32)
    (w7 : Vec Ideal S128x128 .f32) (b8 : Vec Ideal S1x128 .f32) (r : Fin 3000) (j : Fin 128) :
    k0_pay3 (F := Ideal) x0 x1 x2 w3 w4 w5 b6 w7 b8 (ix2 r j)
      = dense (relu fun q => ((dot (rowAt (n := 3000) x0 r) (matOf w3) q + dot (rowAt (n := 3000) x1 r) (matOf w4) q)
          + dot (rowAt (n := 3000) x2 r) (matOf w5) q) + biasOf b6 q) (matOf w7) (biasOf b8) j := by
  unfold k0_pay3
  simp only [addf_apply, mm_apply, truncf_apply, maximumf_apply, broadcast_apply, shapeCast_self, bias_apply]
  rfl

/-- The third layer on top: entry `(r, j)` of what the body stores in the update block. -/
theorem pay1_apply (v35 : FVec Ideal S3000x128 .f32) (w9 : Vec Ideal S128x128 .f32) (b10 : Vec Ideal S1x128 .f32) (r : Fin 3000) (j : Fin 128) :
    k0_pay1 (F := Ideal) v35 w9 b10 (ix2 r j) = dense (relu fun q => v35 (ix2 r q)) (matOf w9) (biasOf b10) j := by
  unfold k0_pay1
  simp only [addf_apply, mm_apply, truncf_apply, maximumf_apply, broadcast_apply, shapeCast_self, bias_apply]
  rfl

/-- The whole edge perceptron: entry `(r, j)` of the update block from rows `r` of the three feature blocks. -/
theorem upd_apply (x0 x1 x2 : Vec Ideal S3000x128 .f32) (w3 w4 w5 : Vec Ideal S128x128 .f32) (b6 : Vec Ideal S1x128 .f32)
    (w7 : Vec Ideal S128x128 .f32) (b8 : Vec Ideal S1x128 .f32) (w9 : Vec Ideal S128x128 .f32) (b10 : Vec Ideal S1x128 .f32)
    (r : Fin 3000) (j : Fin 128) :
    k0_pay1 (F := Ideal) (k0_pay3 (F := Ideal) x0 x1 x2 w3 w4 w5 b6 w7 b8) w9 b10 (ix2 r j)
      = edgeRow (rowAt (n := 3000) x0 r) (rowAt (n := 3000) x1 r) (rowAt (n := 3000) x2 r)
          (matOf w3) (matOf w4) (matOf w5) (matOf w7) (matOf w9) (biasOf b6) (biasOf b8) (biasOf b10) j := by
  refine (pay1_apply (k0_pay3 (F := Ideal) x0 x1 x2 w3 w4 w5 b6 w7 b8) w9 b10 r j).trans ?_
  unfold edgeRow
  refine congrArg (fun h : Row => dense (relu h) (matOf w9) (biasOf b10) j) (funext fun q => ?_)
  exact pay3_apply x0 x1 x2 w3 w4 w5 b6 w7 b8 r q

/-- With the residual: entry `(r, j)` of what the body stores in the new-edges block. -/
theorem new_apply (x0 x1 x2 : Vec Ideal S3000x128 .f32) (w3 w4 w5 : Vec Ideal S128x128 .f32) (b6 : Vec Ideal S1x128 .f32)
    (w7 : Vec Ideal S128x128 .f32) (b8 : Vec Ideal S1x128 .f32) (w9 : Vec Ideal S128x128 .f32) (b10 : Vec Ideal S1x128 .f32)
    (r : Fin 3000) (j : Fin 128) :
    k0_pay2 (F := Ideal) x2 (k0_pay3 (F := Ideal) x0 x1 x2 w3 w4 w5 b6 w7 b8) w9 b10 (ix2 r j)
      = edgeRow (rowAt (n := 3000) x0 r) (rowAt (n := 3000) x1 r) (rowAt (n := 3000) x2 r)
          (matOf w3) (matOf w4) (matOf w5) (matOf w7) (matOf w9) (biasOf b6) (biasOf b8) (biasOf b10) j + x2 (ix2 r j) := by
  unfold k0_pay2
  exact congrArg (· + x2 (ix2 r j)) (upd_apply x0 x1 x2 w3 w4 w5 b6 w7 b8 w9 b10 r j)

/-! ## Each grid point's blocks as rows of the arrays -/

theorem hz : (![0, 0] : Fin 2 → Nat) = fun _ => 0 := funext fun a => by fin_cases a <;> rfl

/-- The grid has 200 points. -/
theorem hN : cfg0.N = 200 := N_0

/-- At point `t` the three feature windows and the two output windows sit at block `(t, 0)`. -/
theorem idx_feat : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- Every weight and bias window sits at block `(0, 0)` at every point. -/
theorem idx_par : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

variable (V : (c : Dev nD) → (b : Ref sig .tc) → Buf (Elt Ideal) ((c : Thread nD τ).loc b))

/-- Row `r` of the sender block at point `t` is row `3000 t + r` of the sender array. -/
theorem feat0_apply (c : Dev nD) (t : Fin cfg0.N) (r : Fin 3000) (k : Fin 128) (i : S600000x128.Idx)
    (h0 : (i 0).val = 3000 * t.val + r.val) (h1 : (i 1).val = k.val) :
    (iblk0 (F := Ideal) V c 0 t : Vec Ideal S3000x128 .f32) (ix2 r k) = (V c main_v6 : S600000x128.Idx → EReal) i := by
  obtain ⟨e0, e1, -⟩ := idx_feat t
  unfold iblk0
  rw [View.read_apply]
  show V c main_v6 _ = V c main_v6 _
  congr 1
  funext a
  apply Fin.ext
  match a with
  | ⟨0, _⟩ => show win0_0.index t (0 : Fin 2) * 3000 + 1 * r.val = (i 0).val; omega
  | ⟨1, _⟩ => show win0_0.index t (1 : Fin 2) * 128 + 1 * k.val = (i 1).val; omega

/-- So the block's row `r` is the array's row `3000 t + r`. -/
theorem row0_eq (c : Dev nD) (t : Fin cfg0.N) (r : Fin 3000) (i : S600000x128.Idx) (h0 : (i 0).val = 3000 * t.val + r.val) :
    rowAt (n := 3000) (iblk0 (F := Ideal) V c 0 t) r = rowAt (n := 600000) (V c main_v6) ⟨(i 0).val, idx2_lt0 i⟩ :=
  funext fun k => feat0_apply V c t r k (ix2 ⟨(i 0).val, idx2_lt0 i⟩ k) h0 rfl

/-- Row `r` of the receiver block at point `t` is row `3000 t + r` of the receiver array. -/
theorem feat1_apply (c : Dev nD) (t : Fin cfg0.N) (r : Fin 3000) (k : Fin 128) (i : S600000x128.Idx)
    (h0 : (i 0).val = 3000 * t.val + r.val) (h1 : (i 1).val = k.val) :
    (iblk0 (F := Ideal) V c 1 t : Vec Ideal S3000x128 .f32) (ix2 r k) = (V c main_v13 : S600000x128.Idx → EReal) i := by
  obtain ⟨-, -, e0, e1, -⟩ := idx_feat t
  unfold iblk0
  rw [View.read_apply]
  show V c main_v13 _ = V c main_v13 _
  congr 1
  funext a
  apply Fin.ext
  match a with
  | ⟨0, _⟩ => show win0_1.index t (0 : Fin 2) * 3000 + 1 * r.val = (i 0).val; omega
  | ⟨1, _⟩ => show win0_1.index t (1 : Fin 2) * 128 + 1 * k.val = (i 1).val; omega

/-- So the block's row `r` is the array's row `3000 t + r`. -/
theorem row1_eq (c : Dev nD) (t : Fin cfg0.N) (r : Fin 3000) (i : S600000x128.Idx) (h0 : (i 0).val = 3000 * t.val + r.val) :
    rowAt (n := 3000) (iblk0 (F := Ideal) V c 1 t) r = rowAt (n := 600000) (V c main_v13) ⟨(i 0).val, idx2_lt0 i⟩ :=
  funext fun k => feat1_apply V c t r k (ix2 ⟨(i 0).val, idx2_lt0 i⟩ k) h0 rfl

/-- Row `r` of the edge block at point `t` is row `3000 t + r` of the edge array. -/
theorem feat2_apply (c : Dev nD) (t : Fin cfg0.N) (r : Fin 3000) (k : Fin 128) (i : S600000x128.Idx)
    (h0 : (i 0).val = 3000 * t.val + r.val) (h1 : (i 1).val = k.val) :
    (iblk0 (F := Ideal) V c 2 t : Vec Ideal S3000x128 .f32) (ix2 r k) = (V c main_arg1 : S600000x128.Idx → EReal) i := by
  obtain ⟨-, -, -, -, e0, e1, -⟩ := idx_feat t
  unfold iblk0
  rw [View.read_apply]
  show V c main_arg1 _ = V c main_arg1 _
  congr 1
  funext a
  apply Fin.ext
  match a with
  | ⟨0, _⟩ => show win0_2.index t (0 : Fin 2) * 3000 + 1 * r.val = (i 0).val; omega
  | ⟨1, _⟩ => show win0_2.index t (1 : Fin 2) * 128 + 1 * k.val = (i 1).val; omega

/-- So the block's row `r` is the array's row `3000 t + r`. -/
theorem row2_eq (c : Dev nD) (t : Fin cfg0.N) (r : Fin 3000) (i : S600000x128.Idx) (h0 : (i 0).val = 3000 * t.val + r.val) :
    rowAt (n := 3000) (iblk0 (F := Ideal) V c 2 t) r = rowAt (n := 600000) (V c main_arg1) ⟨(i 0).val, idx2_lt0 i⟩ :=
  funext fun k => feat2_apply V c t r k (ix2 ⟨(i 0).val, idx2_lt0 i⟩ k) h0 rfl

/-- Window 3's block at any point is its whole 128 x 128 array. -/
theorem mat3_eq (c : Dev nD) (t : Fin cfg0.N) :
    matOf (iblk0 (F := Ideal) V c 3 t) = matAt (n := 128) (V c main_v14) 0 (by decide) := by
  obtain ⟨e0, e1, -⟩ := idx_par t
  funext k j
  unfold matOf matAt iblk0
  rw [View.read_apply]
  show V c main_v14 _ = V c main_v14 _
  congr 1
  funext a
  apply Fin.ext
  match a with
  | ⟨0, _⟩ => show win0_3.index t (0 : Fin 2) * 128 + 1 * k.val = 0 + k.val; omega
  | ⟨1, _⟩ => show win0_3.index t (1 : Fin 2) * 128 + 1 * j.val = j.val; omega

/-- Window 4's block at any point is its whole 128 x 128 array. -/
theorem mat4_eq (c : Dev nD) (t : Fin cfg0.N) :
    matOf (iblk0 (F := Ideal) V c 4 t) = matAt (n := 128) (V c main_v15) 0 (by decide) := by
  obtain ⟨-, -, e0, e1, -⟩ := idx_par t
  funext k j
  unfold matOf matAt iblk0
  rw [View.read_apply]
  show V c main_v15 _ = V c main_v15 _
  congr 1
  funext a
  apply Fin.ext
  match a with
  | ⟨0, _⟩ => show win0_4.index t (0 : Fin 2) * 128 + 1 * k.val = 0 + k.val; omega
  | ⟨1, _⟩ => show win0_4.index t (1 : Fin 2) * 128 + 1 * j.val = j.val; omega

/-- Window 5's block at any point is its whole 128 x 128 array. -/
theorem mat5_eq (c : Dev nD) (t : Fin cfg0.N) :
    matOf (iblk0 (F := Ideal) V c 5 t) = matAt (n := 128) (V c main_v16) 0 (by decide) := by
  obtain ⟨-, -, -, -, e0, e1, -⟩ := idx_par t
  funext k j
  unfold matOf matAt iblk0
  rw [View.read_apply]
  show V c main_v16 _ = V c main_v16 _
  congr 1
  funext a
  apply Fin.ext
  match a with
  | ⟨0, _⟩ => show win0_5.index t (0 : Fin 2) * 128 + 1 * k.val = 0 + k.val; omega
  | ⟨1, _⟩ => show win0_5.index t (1 : Fin 2) * 128 + 1 * j.val = j.val; omega

/-- Window 7's block at any point is its whole 128 x 128 array. -/
theorem mat7_eq (c : Dev nD) (t : Fin cfg0.N) :
    matOf (iblk0 (F := Ideal) V c 7 t) = matAt (n := 128) (V c main_arg6) 0 (by decide) := by
  obtain ⟨-, -, -, -, -, -, -, -, e0, e1, -⟩ := idx_par t
  funext k j
  unfold matOf matAt iblk0
  rw [View.read_apply]
  show V c main_arg6 _ = V c main_arg6 _
  congr 1
  funext a
  apply Fin.ext
  match a with
  | ⟨0, _⟩ => show win0_7.index t (0 : Fin 2) * 128 + 1 * k.val = 0 + k.val; omega
  | ⟨1, _⟩ => show win0_7.index t (1 : Fin 2) * 128 + 1 * j.val = j.val; omega

/-- Window 9's block at any point is its whole 128 x 128 array. -/
theorem mat9_eq (c : Dev nD) (t : Fin cfg0.N) :
    matOf (iblk0 (F := Ideal) V c 9 t) = matAt (n := 128) (V c main_arg8) 0 (by decide) := by
  obtain ⟨-, -, -, -, -, -, -, -, -, -, -, -, e0, e1, -⟩ := idx_par t
  funext k j
  unfold matOf matAt iblk0
  rw [View.read_apply]
  show V c main_arg8 _ = V c main_arg8 _
  congr 1
  funext a
  apply Fin.ext
  match a with
  | ⟨0, _⟩ => show win0_9.index t (0 : Fin 2) * 128 + 1 * k.val = 0 + k.val; omega
  | ⟨1, _⟩ => show win0_9.index t (1 : Fin 2) * 128 + 1 * j.val = j.val; omega

/-- Window 6's block at any point is its whole 1 x 128 array. -/
theorem bias6_eq (c : Dev nD) (t : Fin cfg0.N) :
    biasOf (iblk0 (F := Ideal) V c 6 t) = rowAt (n := 1) (V c main_v17) 0 := by
  obtain ⟨-, -, -, -, -, -, e0, e1, -⟩ := idx_par t
  funext j
  unfold biasOf rowAt iblk0
  rw [View.read_apply]
  show V c main_v17 _ = V c main_v17 _
  congr 1
  funext a
  apply Fin.ext
  match a with
  | ⟨0, _⟩ => show win0_6.index t (0 : Fin 2) * 1 + 1 * 0 = 0; omega
  | ⟨1, _⟩ => show win0_6.index t (1 : Fin 2) * 128 + 1 * j.val = j.val; omega

/-- Window 8's block at any point is its whole 1 x 128 array. -/
theorem bias8_eq (c : Dev nD) (t : Fin cfg0.N) :
    biasOf (iblk0 (F := Ideal) V c 8 t) = rowAt (n := 1) (V c main_v18) 0 := by
  obtain ⟨-, -, -, -, -, -, -, -, -, -, e0, e1, -⟩ := idx_par t
  funext j
  unfold biasOf rowAt iblk0
  rw [View.read_apply]
  show V c main_v18 _ = V c main_v18 _
  congr 1
  funext a
  apply Fin.ext
  match a with
  | ⟨0, _⟩ => show win0_8.index t (0 : Fin 2) * 1 + 1 * 0 = 0; omega
  | ⟨1, _⟩ => show win0_8.index t (1 : Fin 2) * 128 + 1 * j.val = j.val; omega

/-- Window 10's block at any point is its whole 1 x 128 array. -/
theorem bias10_eq (c : Dev nD) (t : Fin cfg0.N) :
    biasOf (iblk0 (F := Ideal) V c 10 t) = rowAt (n := 1) (V c main_v19) 0 := by
  obtain ⟨-, -, -, -, -, -, -, -, -, -, -, -, -, -, e0, e1⟩ := idx_par t
  funext j
  unfold biasOf rowAt iblk0
  rw [View.read_apply]
  show V c main_v19 _ = V c main_v19 _
  congr 1
  funext a
  apply Fin.ext
  match a with
  | ⟨0, _⟩ => show win0_10.index t (0 : Fin 2) * 1 + 1 * 0 = 0; omega
  | ⟨1, _⟩ => show win0_10.index t (1 : Fin 2) * 128 + 1 * j.val = j.val; omega

/-! ## What a point writes back, and the arrays after the last point -/

/-- The edge perceptron depends on its rows, matrices and column only through their values. -/
theorem edgeRow_congr {s s' r r' e e' : Row} {Ws Ws' Wr Wr' We We' W2 W2' W3 W3' : Mat} {b1 b1' b2 b2' b3 b3' : Row} {j j' : Fin 128}
    (hs : s = s') (hr : r = r') (he : e = e') (hWs : Ws = Ws') (hWr : Wr = Wr') (hWe : We = We') (hW2 : W2 = W2') (hW3 : W3 = W3')
    (hb1 : b1 = b1') (hb2 : b2 = b2') (hb3 : b3 = b3') (hj : j = j') :
    edgeRow s r e Ws Wr We W2 W3 b1 b2 b3 j = edgeRow s' r' e' Ws' Wr' We' W2' W3' b1' b2' b3' j' := by
  subst hs hr he hWs hWr hWe hW2 hW3 hb1 hb2 hb3 hj; rfl

/-- The update array as a function of the arrays the region finds. -/
abbrev updOf (c : Dev nD) : S600000x128.Idx → EReal :=
  edgeUpd (V c main_v6) (V c main_v13) (V c main_arg1)
      (matAt (n := 128) (V c main_v14) 0 (by decide)) (matAt (n := 128) (V c main_v15) 0 (by decide))
      (matAt (n := 128) (V c main_v16) 0 (by decide)) (matAt (n := 128) (V c main_arg6) 0 (by decide))
      (matAt (n := 128) (V c main_arg8) 0 (by decide))
      (rowAt (n := 1) (V c main_v17) 0) (rowAt (n := 1) (V c main_v18) 0) (rowAt (n := 1) (V c main_v19) 0)

/-- The new-edges array as a function of the arrays the region finds. -/
abbrev newOf (c : Dev nD) : S600000x128.Idx → EReal :=
  newEdges (V c main_v6) (V c main_v13) (V c main_arg1)
      (matAt (n := 128) (V c main_v14) 0 (by decide)) (matAt (n := 128) (V c main_v15) 0 (by decide))
      (matAt (n := 128) (V c main_v16) 0 (by decide)) (matAt (n := 128) (V c main_arg6) 0 (by decide))
      (matAt (n := 128) (V c main_arg8) 0 (by decide))
      (rowAt (n := 1) (V c main_v17) 0) (rowAt (n := 1) (V c main_v18) 0) (rowAt (n := 1) (V c main_v19) 0)

/-- Entry `(r, j)` of the update block the body computes at point `t` is entry `(3000 t + r, j)` of the update array. -/
theorem upd_at (c : Dev nD) (t : Fin cfg0.N) (r : Fin 3000) (j : Fin 128) (i : S600000x128.Idx)
    (h0 : (i 0).val = 3000 * t.val + r.val) (h1 : (i 1).val = j.val) :
    k0_pay1 (F := Ideal) (k0_pay3 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t))
        (iblk0 (F := Ideal) V c 9 t) (iblk0 (F := Ideal) V c 10 t) (ix2 r j)
      = updOf V c i := by
  refine (upd_apply (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) (iblk0 (F := Ideal) V c 10 t) r j).trans ?_
  exact edgeRow_congr (row0_eq V c t r i h0) (row1_eq V c t r i h0) (row2_eq V c t r i h0)
    (mat3_eq V c t) (mat4_eq V c t) (mat5_eq V c t) (mat7_eq V c t) (mat9_eq V c t)
    (bias6_eq V c t) (bias8_eq V c t) (bias10_eq V c t) (Fin.ext h1.symm)

/-- The same with the residual: the new-edges block. -/
theorem new_at (c : Dev nD) (t : Fin cfg0.N) (r : Fin 3000) (j : Fin 128) (i : S600000x128.Idx)
    (h0 : (i 0).val = 3000 * t.val + r.val) (h1 : (i 1).val = j.val) :
    k0_pay2 (F := Ideal) (iblk0 (F := Ideal) V c 2 t) (k0_pay3 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t))
        (iblk0 (F := Ideal) V c 9 t) (iblk0 (F := Ideal) V c 10 t) (ix2 r j)
      = newOf V c i := by
  unfold k0_pay2
  show k0_pay1 (F := Ideal) (k0_pay3 (F := Ideal) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t))
        (iblk0 (F := Ideal) V c 9 t) (iblk0 (F := Ideal) V c 10 t) (ix2 r j) + (iblk0 (F := Ideal) V c 2 t : Vec Ideal S3000x128 .f32) (ix2 r j)
      = updOf V c i + (V c main_arg1 : S600000x128.Idx → EReal) i
  rw [upd_at V c t r j i h0 h1, feat2_apply V c t r j i h0 h1]

/-- WHAT POINT `t` WRITES BACK to the update array is block `t` of `updOf`. -/
theorem flushed12_eq (c : Dev nD) (t : Fin cfg0.N) :
    (dat0 (F := Ideal) V c).flushed 12 t = ((cfg0.win 12).blk t).view.read (Elt Ideal) (updOf V c) := by
  show (cfg0.win 12).cut (grid0.coords t) ((dat0 (F := Ideal) V c).after 12 t) = _
  rw [after0_12]
  unfold out0_12
  rw [View.canon_unit_zero hz]
  simp only [View.ld_unit_zero (S := S3000x128) hz, View.ld_unit_zero (S := S128x128) hz, View.ld_unit_zero (S := S1x128) hz]
  obtain ⟨-, -, -, -, -, -, -, -, e0, e1⟩ := idx_feat t
  funext y
  obtain ⟨r, j, rfl⟩ : ∃ (r : Fin 3000) (j : Fin 128), y = ix2 r j := ⟨y 0, y 1, eq_ix2 (n0 := 3000) (n1 := 128) y⟩
  refine upd_at V c t r j _ ?_ ?_
  · show win0_12.index t (0 : Fin 2) * 3000 + 1 * r.val = 3000 * t.val + r.val; omega
  · show win0_12.index t (1 : Fin 2) * 128 + 1 * j.val = j.val; omega

/-- WHAT POINT `t` WRITES BACK to the new-edges array is block `t` of `newOf`. -/
theorem flushed11_eq (c : Dev nD) (t : Fin cfg0.N) :
    (dat0 (F := Ideal) V c).flushed 11 t = ((cfg0.win 11).blk t).view.read (Elt Ideal) (newOf V c) := by
  show (cfg0.win 11).cut (grid0.coords t) ((dat0 (F := Ideal) V c).after 11 t) = _
  rw [after0_11]
  unfold out0_11
  rw [View.canon_unit_zero hz]
  simp only [View.ld_unit_zero (S := S3000x128) hz, View.ld_unit_zero (S := S128x128) hz, View.ld_unit_zero (S := S1x128) hz]
  obtain ⟨-, -, -, -, -, -, e0, e1, -⟩ := idx_feat t
  funext y
  obtain ⟨r, j, rfl⟩ : ∃ (r : Fin 3000) (j : Fin 128), y = ix2 r j := ⟨y 0, y 1, eq_ix2 (n0 := 3000) (n1 := 128) y⟩
  refine new_at V c t r j _ ?_ ?_
  · show win0_11.index t (0 : Fin 2) * 3000 + 1 * r.val = 3000 * t.val + r.val; omega
  · show win0_11.index t (1 : Fin 2) * 128 + 1 * j.val = j.val; omega

/-- An index of the update array is in point `t`'s block iff each coordinate is in the block's range on its axis. -/
theorem mem_blk12 (t : Fin cfg0.N) (i : S600000x128.Idx) :
    i ∈ ((cfg0.win 12).blk t).view.set ↔ ∀ a : Fin 2, win0_12.index t a * S3000x128.size a ≤ (i a).val ∧ (i a).val < win0_12.index t a * S3000x128.size a + S3000x128.size a := by
  show i ∈ ((View.whole main_v20_1).slice (win0_12.rect t)).set ↔ _
  rw [View.set_slice_whole, Rect.mem_set_unit]
  exact Iff.rfl

theorem mem_blk11 (t : Fin cfg0.N) (i : S600000x128.Idx) :
    i ∈ ((cfg0.win 11).blk t).view.set ↔ ∀ a : Fin 2, win0_11.index t a * S3000x128.size a ≤ (i a).val ∧ (i a).val < win0_11.index t a * S3000x128.size a + S3000x128.size a := by
  show i ∈ ((View.whole main_v20_0).slice (win0_11.rect t)).set ↔ _
  rw [View.set_slice_whole, Rect.mem_set_unit]
  exact Iff.rfl

/-- Row `r` of the update array is in the block of point `r / 3000`. -/
theorem cover12 (i : S600000x128.Idx) :
    ∃ t : Fin cfg0.N, (cfg0.win 12).flush t = true ∧ i ∈ ((cfg0.win 12).blk t).view.set := by
  have hi0 : (i 0).val < 600000 := idx2_lt0 i
  have hi1 : (i 1).val < 128 := idx2_lt1 i
  obtain ⟨t, ht⟩ : ∃ t : Fin cfg0.N, t.val = (i 0).val / 3000 := ⟨⟨(i 0).val / 3000, by rw [hN]; omega⟩, rfl⟩
  obtain ⟨-, -, -, -, -, -, -, -, e0, e1⟩ := idx_feat t
  refine ⟨t, flush0_12 t, ?_⟩
  rw [mem_blk12]
  intro a
  match a with
  | ⟨0, _⟩ => show win0_12.index t (0 : Fin 2) * 3000 ≤ (i 0).val ∧ (i 0).val < win0_12.index t (0 : Fin 2) * 3000 + 3000; omega
  | ⟨1, _⟩ => show win0_12.index t (1 : Fin 2) * 128 ≤ (i 1).val ∧ (i 1).val < win0_12.index t (1 : Fin 2) * 128 + 128; omega

theorem cover11 (i : S600000x128.Idx) :
    ∃ t : Fin cfg0.N, (cfg0.win 11).flush t = true ∧ i ∈ ((cfg0.win 11).blk t).view.set := by
  have hi0 : (i 0).val < 600000 := idx2_lt0 i
  have hi1 : (i 1).val < 128 := idx2_lt1 i
  obtain ⟨t, ht⟩ : ∃ t : Fin cfg0.N, t.val = (i 0).val / 3000 := ⟨⟨(i 0).val / 3000, by rw [hN]; omega⟩, rfl⟩
  obtain ⟨-, -, -, -, -, -, e0, e1, -⟩ := idx_feat t
  refine ⟨t, flush0_11 t, ?_⟩
  rw [mem_blk11]
  intro a
  match a with
  | ⟨0, _⟩ => show win0_11.index t (0 : Fin 2) * 3000 ≤ (i 0).val ∧ (i 0).val < win0_11.index t (0 : Fin 2) * 3000 + 3000; omega
  | ⟨1, _⟩ => show win0_11.index t (1 : Fin 2) * 128 ≤ (i 1).val ∧ (i 1).val < win0_11.index t (1 : Fin 2) * 128 + 128; omega

/-- The update array (output window 12) after the region: the edge perceptron of the entry contents, row by row. -/
theorem upd_arr (c : Dev nD) :
    (dat0 (F := Ideal) V c).arrAt 12 cfg0.N
      = edgeUpd (V c main_v6) (V c main_v13) (V c main_arg1)
          (matAt (n := 128) (V c main_v14) 0 (by decide)) (matAt (n := 128) (V c main_v15) 0 (by decide))
          (matAt (n := 128) (V c main_v16) 0 (by decide)) (matAt (n := 128) (V c main_arg6) 0 (by decide))
          (matAt (n := 128) (V c main_arg8) 0 (by decide))
          (rowAt (n := 1) (V c main_v17) 0) (rowAt (n := 1) (V c main_v18) 0) (rowAt (n := 1) (V c main_v19) 0) :=
  (dat0 (F := Ideal) V c).arrAt_eq_of_cover 12 (updOf V c) (fun t _ => flushed12_eq V c t) cover12

/-- The new-edges array (output window 11) after the region: the update plus the edge features. -/
theorem edges_arr (c : Dev nD) :
    (dat0 (F := Ideal) V c).arrAt 11 cfg0.N
      = newEdges (V c main_v6) (V c main_v13) (V c main_arg1)
          (matAt (n := 128) (V c main_v14) 0 (by decide)) (matAt (n := 128) (V c main_v15) 0 (by decide))
          (matAt (n := 128) (V c main_v16) 0 (by decide)) (matAt (n := 128) (V c main_arg6) 0 (by decide))
          (matAt (n := 128) (V c main_arg8) 0 (by decide))
          (rowAt (n := 1) (V c main_v17) 0) (rowAt (n := 1) (V c main_v18) 0) (rowAt (n := 1) (V c main_v19) 0) :=
  (dat0 (F := Ideal) V c).arrAt_eq_of_cover 11 (newOf V c) (fun t _ => flushed11_eq V c t) cover11

end Cert.KernelIdeal.EdgeRegion

end
-- ==== Proof.NodeRegion.lean ====
/-
  What the node kernel's region leaves in its output array, whatever the buffers hold when the region is entered: each of
  its 25 grid points reads rows 4000·t … 4000·t + 3999 of the node features and of the aggregate and the whole of each
  weight and bias array, and writes the same rows of the output; row by row the body is the node perceptron plus the
  node's own features.
-/
import proofs.«120930_j73684458930837_1_alg».proof.Proof.Gen.KernelIdeal.Frame
import proofs.«120930_j73684458930837_1_alg».proof.Proof.Spec
import Idealize.ShloMosaic.Lib.Pipeline.Value
import Idealize.ShloMosaic.PureOps.Ideal.Laws

noncomputable section

namespace Cert.KernelIdeal.NodeRegion

open Cert.KernelIdeal Cert.KernelIdeal.Gen Idealize.ShloMosaic Idealize.ShloMosaic.TcCoe Idealize.SL.Sem
open Idealize.ShloMosaic.ValueIdx Cert.GraphNet
open Idealize.ShloMosaic.Pipeline (Dat)
open scoped BigOperators

/-! ## A 4000 x 128 by 128 x 128 product into the zero accumulator, at an index -/

theorem mm_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mm_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mm_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(r, j)` of the product is the sum over the 128 shared coordinates of row `r` of the left factor times column
    `j` of the right. -/
theorem mm_apply (lhs : FVec Ideal S4000x128 .bf16) (rhs : FVec Ideal S128x128 .bf16) (r : Fin 4000) (j : Fin 128) :
    matmul dot_S4000x128_S128x128_S4000x128_1_0_0_1_n_n none lhs rhs (constant (F := Ideal) S4000x128 .f32 0x00000000#32) (ix2 r j)
      = ∑ k : Fin 128, lhs (ix2 r k) * rhs (ix2 k j) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r j) ((ValueIdx.contrEquiv1 dot_S4000x128_S128x128_S4000x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S4000x128_S128x128_S4000x128_1_0_0_1_n_n.rhsIdx (ix2 r j) ((ValueIdx.contrEquiv1 dot_S4000x128_S128x128_S4000x128_1_0_0_1_n_n 128 rfl rfl).symm k) = ix2 k j := funext fun a => Fin.ext (by
    match a with
    | ⟨0, _⟩ => exact (mm_rhs_0 _ _).trans hk
    | ⟨1, _⟩ => exact mm_rhs_1 _ _)
  rw [el, er]

/-! ## The body's arithmetic, row by row -/

/-- A 128 x 128 block as a matrix. -/
def matOf (W : Vec Ideal S128x128 .f32) : Mat := fun k j => W (ix2 k j)
/-- A 1 x 128 block as a row. -/
def biasOf (b : Vec Ideal S1x128 .f32) : Row := fun j => b (ix2 0 j)

/-- The bias block spread over the 4000 rows reads its own entry of the column. -/
theorem bias_apply (b : FVec Ideal S1x128 .f32) (r : Fin 4000) (j : Fin 128) :
    broadcastTo S4000x128 b broadcasts_S1x128_S4000x128 (ix2 r j) = b (ix2 0 j) :=
  broadcastTo_apply b broadcasts_S1x128_S4000x128 (ix2 r j) (ix2 0 j) fun a => by
    match a with
    | ⟨0, _⟩ => rfl
    | ⟨1, _⟩ => rfl

/-- The node perceptron up to its last product: entry `(r, j)` of the body's intermediate block is the third layer's
    product of the rectified second layer of the rectified first layer of rows `r` of the two feature blocks. -/
theorem pay2_apply (x0 x1 : Vec Ideal S4000x128 .f32) (w2 w3 : Vec Ideal S128x128 .f32) (b4 : Vec Ideal S1x128 .f32)
    (w5 : Vec Ideal S128x128 .f32) (b6 : Vec Ideal S1x128 .f32) (w7 : Vec Ideal S128x128 .f32) (r : Fin 4000) (j : Fin 128) :
    k1_pay2 (F := Ideal) x0 x1 w2 w3 b4 w5 b6 w7 (ix2 r j)
      = dot (relu (dense (relu fun q => (dot (rowAt (n := 4000) x0 r) (matOf w2) q + dot (rowAt (n := 4000) x1 r) (matOf w3) q)
          + biasOf b4 q) (matOf w5) (biasOf b6))) (matOf w7) j := by
  unfold k1_pay2
  simp only [addf_apply, mm_apply, truncf_apply, maximumf_apply, broadcast_apply, shapeCast_self, bias_apply]
  rfl

/-- The last bias and the residual on top: entry `(r, j)` of what the body stores. -/
theorem pay1_apply (x0 : Vec Ideal S4000x128 .f32) (v33 : FVec Ideal S4000x128 .f32) (b8 : Vec Ideal S1x128 .f32) (r : Fin 4000) (j : Fin 128) :
    k1_pay1 (F := Ideal) x0 v33 b8 (ix2 r j) = (v33 (ix2 r j) + biasOf b8 j) + x0 (ix2 r j) := by
  unfold k1_pay1
  simp only [addf_apply, shapeCast_self, bias_apply]
  rfl

/-- The whole node update: entry `(r, j)` of the stored block from rows `r` of the two feature blocks. -/
theorem node_apply (x0 x1 : Vec Ideal S4000x128 .f32) (w2 w3 : Vec Ideal S128x128 .f32) (b4 : Vec Ideal S1x128 .f32)
    (w5 : Vec Ideal S128x128 .f32) (b6 : Vec Ideal S1x128 .f32) (w7 : Vec Ideal S128x128 .f32) (b8 : Vec Ideal S1x128 .f32)
    (r : Fin 4000) (j : Fin 128) :
    k1_pay1 (F := Ideal) x0 (k1_pay2 (F := Ideal) x0 x1 w2 w3 b4 w5 b6 w7) b8 (ix2 r j)
      = nodeRow (rowAt (n := 4000) x0 r) (rowAt (n := 4000) x1 r) (matOf w2) (matOf w3) (matOf w5) (matOf w7)
          (biasOf b4) (biasOf b6) (biasOf b8) j + x0 (ix2 r j) := by
  refine (pay1_apply x0 (k1_pay2 (F := Ideal) x0 x1 w2 w3 b4 w5 b6 w7) b8 r j).trans ?_
  exact congrArg (fun z : EReal => (z + biasOf b8 j) + x0 (ix2 r j)) (pay2_apply x0 x1 w2 w3 b4 w5 b6 w7 r j)

/-! ## Each grid point's blocks as rows of the arrays -/

theorem hz : (![0, 0] : Fin 2 → Nat) = fun _ => 0 := funext fun a => by fin_cases a <;> rfl

/-- The grid has 25 points. -/
theorem hN : cfg1.N = 25 := N_1

/-- At point `t` the two feature windows and the output window sit at block `(t, 0)`. -/
theorem idx_feat : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0 :=
  (by decide +kernel : ∀ t : Fin grid1.N, _)

/-- Every weight and bias window sits at block `(0, 0)` at every point. -/
theorem idx_par : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

variable (V : (c : Dev nD) → (b : Ref sig .tc) → Buf (Elt Ideal) ((c : Thread nD τ).loc b))

/-- Row `r` of the node block at point `t` is row `4000 t + r` of the node array. -/
theorem feat0_apply (c : Dev nD) (t : Fin cfg1.N) (r : Fin 4000) (k : Fin 128) (i : S100000x128.Idx)
    (h0 : (i 0).val = 4000 * t.val + r.val) (h1 : (i 1).val = k.val) :
    (iblk1 (F := Ideal) V c 0 t : Vec Ideal S4000x128 .f32) (ix2 r k) = (V c main_arg0 : S100000x128.Idx → EReal) i := by
  obtain ⟨e0, e1, -⟩ := idx_feat t
  unfold iblk1
  rw [View.read_apply]
  show V c main_arg0 _ = V c main_arg0 _
  congr 1
  funext a
  apply Fin.ext
  match a with
  | ⟨0, _⟩ => show win1_0.index t (0 : Fin 2) * 4000 + 1 * r.val = (i 0).val; omega
  | ⟨1, _⟩ => show win1_0.index t (1 : Fin 2) * 128 + 1 * k.val = (i 1).val; omega

/-- So the block's row `r` is the array's row `4000 t + r`. -/
theorem row0_eq (c : Dev nD) (t : Fin cfg1.N) (r : Fin 4000) (i : S100000x128.Idx) (h0 : (i 0).val = 4000 * t.val + r.val) :
    rowAt (n := 4000) (iblk1 (F := Ideal) V c 0 t) r = rowAt (n := 100000) (V c main_arg0) ⟨(i 0).val, idx2_lt0 i⟩ :=
  funext fun k => feat0_apply V c t r k (ix2 ⟨(i 0).val, idx2_lt0 i⟩ k) h0 rfl

/-- Row `r` of the aggregate block at point `t` is row `4000 t + r` of the aggregate array. -/
theorem feat1_apply (c : Dev nD) (t : Fin cfg1.N) (r : Fin 4000) (k : Fin 128) (i : S100000x128.Idx)
    (h0 : (i 0).val = 4000 * t.val + r.val) (h1 : (i 1).val = k.val) :
    (iblk1 (F := Ideal) V c 1 t : Vec Ideal S4000x128 .f32) (ix2 r k) = (V c main_v23 : S100000x128.Idx → EReal) i := by
  obtain ⟨-, -, e0, e1, -⟩ := idx_feat t
  unfold iblk1
  rw [View.read_apply]
  show V c main_v23 _ = V c main_v23 _
  congr 1
  funext a
  apply Fin.ext
  match a with
  | ⟨0, _⟩ => show win1_1.index t (0 : Fin 2) * 4000 + 1 * r.val = (i 0).val; omega
  | ⟨1, _⟩ => show win1_1.index t (1 : Fin 2) * 128 + 1 * k.val = (i 1).val; omega

/-- So the block's row `r` is the array's row `4000 t + r`. -/
theorem row1_eq (c : Dev nD) (t : Fin cfg1.N) (r : Fin 4000) (i : S100000x128.Idx) (h0 : (i 0).val = 4000 * t.val + r.val) :
    rowAt (n := 4000) (iblk1 (F := Ideal) V c 1 t) r = rowAt (n := 100000) (V c main_v23) ⟨(i 0).val, idx2_lt0 i⟩ :=
  funext fun k => feat1_apply V c t r k (ix2 ⟨(i 0).val, idx2_lt0 i⟩ k) h0 rfl

/-- Window 2's block at any point is its whole 128 x 128 array. -/
theorem mat2_eq (c : Dev nD) (t : Fin cfg1.N) :
    matOf (iblk1 (F := Ideal) V c 2 t) = matAt (n := 128) (V c main_v24) 0 (by decide) := by
  obtain ⟨e0, e1, -⟩ := idx_par t
  funext k j
  unfold matOf matAt iblk1
  rw [View.read_apply]
  show V c main_v24 _ = V c main_v24 _
  congr 1
  funext a
  apply Fin.ext
  match a with
  | ⟨0, _⟩ => show win1_2.index t (0 : Fin 2) * 128 + 1 * k.val = 0 + k.val; omega
  | ⟨1, _⟩ => show win1_2.index t (1 : Fin 2) * 128 + 1 * j.val = j.val; omega

/-- Window 3's block at any point is its whole 128 x 128 array. -/
theorem mat3_eq (c : Dev nD) (t : Fin cfg1.N) :
    matOf (iblk1 (F := Ideal) V c 3 t) = matAt (n := 128) (V c main_v25) 0 (by decide) := by
  obtain ⟨-, -, e0, e1, -⟩ := idx_par t
  funext k j
  unfold matOf matAt iblk1
  rw [View.read_apply]
  show V c main_v25 _ = V c main_v25 _
  congr 1
  funext a
  apply Fin.ext
  match a with
  | ⟨0, _⟩ => show win1_3.index t (0 : Fin 2) * 128 + 1 * k.val = 0 + k.val; omega
  | ⟨1, _⟩ => show win1_3.index t (1 : Fin 2) * 128 + 1 * j.val = j.val; omega

/-- Window 5's block at any point is its whole 128 x 128 array. -/
theorem mat5_eq (c : Dev nD) (t : Fin cfg1.N) :
    matOf (iblk1 (F := Ideal) V c 5 t) = matAt (n := 128) (V c main_arg12) 0 (by decide) := by
  obtain ⟨-, -, -, -, -, -, e0, e1, -⟩ := idx_par t
  funext k j
  unfold matOf matAt iblk1
  rw [View.read_apply]
  show V c main_arg12 _ = V c main_arg12 _
  congr 1
  funext a
  apply Fin.ext
  match a with
  | ⟨0, _⟩ => show win1_5.index t (0 : Fin 2) * 128 + 1 * k.val = 0 + k.val; omega
  | ⟨1, _⟩ => show win1_5.index t (1 : Fin 2) * 128 + 1 * j.val = j.val; omega

/-- Window 7's block at any point is its whole 128 x 128 array. -/
theorem mat7_eq (c : Dev nD) (t : Fin cfg1.N) :
    matOf (iblk1 (F := Ideal) V c 7 t) = matAt (n := 128) (V c main_arg14) 0 (by decide) := by
  obtain ⟨-, -, -, -, -, -, -, -, -, -, e0, e1, -⟩ := idx_par t
  funext k j
  unfold matOf matAt iblk1
  rw [View.read_apply]
  show V c main_arg14 _ = V c main_arg14 _
  congr 1
  funext a
  apply Fin.ext
  match a with
  | ⟨0, _⟩ => show win1_7.index t (0 : Fin 2) * 128 + 1 * k.val = 0 + k.val; omega
  | ⟨1, _⟩ => show win1_7.index t (1 : Fin 2) * 128 + 1 * j.val = j.val; omega

/-- Window 4's block at any point is its whole 1 x 128 array. -/
theorem bias4_eq (c : Dev nD) (t : Fin cfg1.N) :
    biasOf (iblk1 (F := Ideal) V c 4 t) = rowAt (n := 1) (V c main_v26) 0 := by
  obtain ⟨-, -, -, -, e0, e1, -⟩ := idx_par t
  funext j
  unfold biasOf rowAt iblk1
  rw [View.read_apply]
  show V c main_v26 _ = V c main_v26 _
  congr 1
  funext a
  apply Fin.ext
  match a with
  | ⟨0, _⟩ => show win1_4.index t (0 : Fin 2) * 1 + 1 * 0 = 0; omega
  | ⟨1, _⟩ => show win1_4.index t (1 : Fin 2) * 128 + 1 * j.val = j.val; omega

/-- Window 6's block at any point is its whole 1 x 128 array. -/
theorem bias6_eq (c : Dev nD) (t : Fin cfg1.N) :
    biasOf (iblk1 (F := Ideal) V c 6 t) = rowAt (n := 1) (V c main_v27) 0 := by
  obtain ⟨-, -, -, -, -, -, -, -, e0, e1, -⟩ := idx_par t
  funext j
  unfold biasOf rowAt iblk1
  rw [View.read_apply]
  show V c main_v27 _ = V c main_v27 _
  congr 1
  funext a
  apply Fin.ext
  match a with
  | ⟨0, _⟩ => show win1_6.index t (0 : Fin 2) * 1 + 1 * 0 = 0; omega
  | ⟨1, _⟩ => show win1_6.index t (1 : Fin 2) * 128 + 1 * j.val = j.val; omega

/-- Window 8's block at any point is its whole 1 x 128 array. -/
theorem bias8_eq (c : Dev nD) (t : Fin cfg1.N) :
    biasOf (iblk1 (F := Ideal) V c 8 t) = rowAt (n := 1) (V c main_v28) 0 := by
  obtain ⟨-, -, -, -, -, -, -, -, -, -, -, -, e0, e1⟩ := idx_par t
  funext j
  unfold biasOf rowAt iblk1
  rw [View.read_apply]
  show V c main_v28 _ = V c main_v28 _
  congr 1
  funext a
  apply Fin.ext
  match a with
  | ⟨0, _⟩ => show win1_8.index t (0 : Fin 2) * 1 + 1 * 0 = 0; omega
  | ⟨1, _⟩ => show win1_8.index t (1 : Fin 2) * 128 + 1 * j.val = j.val; omega

/-! ## What a point writes back, and the array after the last point -/

/-- The node perceptron depends on its rows, matrices and column only through their values. -/
theorem nodeRow_congr {a a' g g' : Row} {Wn Wn' Wa Wa' W2 W2' W3 W3' : Mat} {b1 b1' b2 b2' b3 b3' : Row} {j j' : Fin 128}
    (ha : a = a') (hg : g = g') (hWn : Wn = Wn') (hWa : Wa = Wa') (hW2 : W2 = W2') (hW3 : W3 = W3')
    (hb1 : b1 = b1') (hb2 : b2 = b2') (hb3 : b3 = b3') (hj : j = j') :
    nodeRow a g Wn Wa W2 W3 b1 b2 b3 j = nodeRow a' g' Wn' Wa' W2' W3' b1' b2' b3' j' := by
  subst ha hg hWn hWa hW2 hW3 hb1 hb2 hb3 hj; rfl

/-- The new-nodes array as a function of the arrays the region finds. -/
abbrev newOf (c : Dev nD) : S100000x128.Idx → EReal :=
  newNodes (V c main_arg0) (V c main_v23)
      (matAt (n := 128) (V c main_v24) 0 (by decide)) (matAt (n := 128) (V c main_v25) 0 (by decide))
      (matAt (n := 128) (V c main_arg12) 0 (by decide)) (matAt (n := 128) (V c main_arg14) 0 (by decide))
      (rowAt (n := 1) (V c main_v26) 0) (rowAt (n := 1) (V c main_v27) 0) (rowAt (n := 1) (V c main_v28) 0)

/-- Entry `(r, j)` of the block the body computes at point `t` is entry `(4000 t + r, j)` of the new-nodes array. -/
theorem new_at (c : Dev nD) (t : Fin cfg1.N) (r : Fin 4000) (j : Fin 128) (i : S100000x128.Idx)
    (h0 : (i 0).val = 4000 * t.val + r.val) (h1 : (i 1).val = j.val) :
    k1_pay1 (F := Ideal) (iblk1 (F := Ideal) V c 0 t) (k1_pay2 (F := Ideal) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t)) (iblk1 (F := Ideal) V c 8 t) (ix2 r j)
      = newOf V c i := by
  refine (node_apply (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) (iblk1 (F := Ideal) V c 8 t) r j).trans ?_
  show _ = nodeRow (rowAt (n := 100000) (V c main_arg0) ⟨(i 0).val, idx2_lt0 i⟩) (rowAt (n := 100000) (V c main_v23) ⟨(i 0).val, idx2_lt0 i⟩)
      (matAt (n := 128) (V c main_v24) 0 (by decide)) (matAt (n := 128) (V c main_v25) 0 (by decide))
      (matAt (n := 128) (V c main_arg12) 0 (by decide)) (matAt (n := 128) (V c main_arg14) 0 (by decide))
      (rowAt (n := 1) (V c main_v26) 0) (rowAt (n := 1) (V c main_v27) 0) (rowAt (n := 1) (V c main_v28) 0) ⟨(i 1).val, idx2_lt1 i⟩
    + (V c main_arg0 : S100000x128.Idx → EReal) i
  rw [feat0_apply V c t r j i h0 h1]
  exact congrArg (· + (V c main_arg0 : S100000x128.Idx → EReal) i)
    (nodeRow_congr (row0_eq V c t r i h0) (row1_eq V c t r i h0)
      (mat2_eq V c t) (mat3_eq V c t) (mat5_eq V c t) (mat7_eq V c t)
      (bias4_eq V c t) (bias6_eq V c t) (bias8_eq V c t) (Fin.ext h1.symm))

/-- WHAT POINT `t` WRITES BACK to the new-nodes array is block `t` of `newOf`. -/
theorem flushed9_eq (c : Dev nD) (t : Fin cfg1.N) :
    (dat1 (F := Ideal) V c).flushed 9 t = ((cfg1.win 9).blk t).view.read (Elt Ideal) (newOf V c) := by
  show (cfg1.win 9).cut (grid1.coords t) ((dat1 (F := Ideal) V c).after 9 t) = _
  rw [after1_9]
  unfold out1_9
  rw [View.canon_unit_zero hz]
  simp only [View.ld_unit_zero (S := S4000x128) hz, View.ld_unit_zero (S := S128x128) hz, View.ld_unit_zero (S := S1x128) hz]
  obtain ⟨-, -, -, -, e0, e1⟩ := idx_feat t
  funext y
  obtain ⟨r, j, rfl⟩ : ∃ (r : Fin 4000) (j : Fin 128), y = ix2 r j := ⟨y 0, y 1, eq_ix2 (n0 := 4000) (n1 := 128) y⟩
  refine new_at V c t r j _ ?_ ?_
  · show win1_9.index t (0 : Fin 2) * 4000 + 1 * r.val = 4000 * t.val + r.val; omega
  · show win1_9.index t (1 : Fin 2) * 128 + 1 * j.val = j.val; omega

/-- An index of the new-nodes array is in point `t`'s block iff each coordinate is in the block's range on its axis. -/
theorem mem_blk9 (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v29).slice (win1_9.rect t)).set ↔ _
  rw [View.set_slice_whole, Rect.mem_set_unit]
  exact Iff.rfl

/-- Row `r` of the new-nodes array is in the block of point `r / 4000`. -/
theorem cover9 (i : S100000x128.Idx) :
    ∃ t : Fin cfg1.N, (cfg1.win 9).flush t = true ∧ i ∈ ((cfg1.win 9).blk t).view.set := by
  have hi0 : (i 0).val < 100000 := idx2_lt0 i
  have hi1 : (i 1).val < 128 := idx2_lt1 i
  obtain ⟨t, ht⟩ : ∃ t : Fin cfg1.N, t.val = (i 0).val / 4000 := ⟨⟨(i 0).val / 4000, by rw [hN]; omega⟩, rfl⟩
  obtain ⟨-, -, -, -, e0, e1⟩ := idx_feat t
  refine ⟨t, flush1_9 t, ?_⟩
  rw [mem_blk9]
  intro a
  match a with
  | ⟨0, _⟩ => show win1_9.index t (0 : Fin 2) * 4000 ≤ (i 0).val ∧ (i 0).val < win1_9.index t (0 : Fin 2) * 4000 + 4000; omega
  | ⟨1, _⟩ => show win1_9.index t (1 : Fin 2) * 128 ≤ (i 1).val ∧ (i 1).val < win1_9.index t (1 : Fin 2) * 128 + 128; omega

/-- The new-nodes array (output window 9) after the region. -/
theorem nodes_arr (c : Dev nD) :
    (dat1 (F := Ideal) V c).arrAt 9 cfg1.N
      = newNodes (V c main_arg0) (V c main_v23)
          (matAt (n := 128) (V c main_v24) 0 (by decide)) (matAt (n := 128) (V c main_v25) 0 (by decide))
          (matAt (n := 128) (V c main_arg12) 0 (by decide)) (matAt (n := 128) (V c main_arg14) 0 (by decide))
          (rowAt (n := 1) (V c main_v26) 0) (rowAt (n := 1) (V c main_v27) 0) (rowAt (n := 1) (V c main_v28) 0) :=
  (dat1 (F := Ideal) V c).arrAt_eq_of_cover 9 (newOf V c) (fun t _ => flushed9_eq V c t) cover9

end Cert.KernelIdeal.NodeRegion

end
-- ==== Proof.KFold.lean ====
/-
  The kernel program's two results as functions of the launch memory: the new edges are the specification's, of the two
  gathered arrays and the edge features; the new nodes are the specification's, of the node features and of the
  scatter-added edge update.  A 128 x 128 cut of a taller weight array, read as a matrix, is that array's 128 rows from
  the cut's offset; a bias laid out as a single row, read back as a row, is the bias.
-/
import proofs.«120930_j73684458930837_1_alg».proof.Proof.HostEntry1
import proofs.«120930_j73684458930837_1_alg».proof.Proof.EdgeRegion
import proofs.«120930_j73684458930837_1_alg».proof.Proof.NodeRegion
import Idealize.ShloMosaic.Lib.Pipeline.Value

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphNet

/-! ## Cuts and layouts read back -/

theorem matAt_cut384_0 (W : S384x128.Idx → EReal) :
    matAt (n := 128) (extractStridedSlice S128x128 ![0, 0] W slices_S384x128_S128x128_0_0) 0 (by decide) = matAt W 0 (by decide) := by
  funext k j
  refine extractStridedSlice_apply _ W _ _ _ fun a => ?_
  match a with
  | ⟨0, _⟩ => show 0 + k.val = 0 + (0 + k.val); omega
  | ⟨1, _⟩ => show j.val = 0 + j.val; omega
theorem matAt_cut384_128 (W : S384x128.Idx → EReal) :
    matAt (n := 128) (extractStridedSlice S128x128 ![128, 0] W slices_S384x128_S128x128_128_0) 0 (by decide) = matAt W 128 (by decide) := by
  funext k j
  refine extractStridedSlice_apply _ W _ _ _ fun a => ?_
  match a with
  | ⟨0, _⟩ => show 128 + k.val = 128 + (0 + k.val); omega
  | ⟨1, _⟩ => show j.val = 0 + j.val; omega
theorem matAt_cut384_256 (W : S384x128.Idx → EReal) :
    matAt (n := 128) (extractStridedSlice S128x128 ![256, 0] W slices_S384x128_S128x128_256_0) 0 (by decide) = matAt W 256 (by decide) := by
  funext k j
  refine extractStridedSlice_apply _ W _ _ _ fun a => ?_
  match a with
  | ⟨0, _⟩ => show 256 + k.val = 256 + (0 + k.val); omega
  | ⟨1, _⟩ => show j.val = 0 + j.val; omega
theorem matAt_cut256_0 (W : S256x128.Idx → EReal) :
    matAt (n := 128) (extractStridedSlice S128x128 ![0, 0] W slices_S256x128_S128x128_0_0) 0 (by decide) = matAt W 0 (by decide) := by
  funext k j
  refine extractStridedSlice_apply _ W _ _ _ fun a => ?_
  match a with
  | ⟨0, _⟩ => show 0 + k.val = 0 + (0 + k.val); omega
  | ⟨1, _⟩ => show j.val = 0 + j.val; omega
theorem matAt_cut256_128 (W : S256x128.Idx → EReal) :
    matAt (n := 128) (extractStridedSlice S128x128 ![128, 0] W slices_S256x128_S128x128_128_0) 0 (by decide) = matAt W 128 (by decide) := by
  funext k j
  refine extractStridedSlice_apply _ W _ _ _ fun a => ?_
  match a with
  | ⟨0, _⟩ => show 128 + k.val = 128 + (0 + k.val); omega
  | ⟨1, _⟩ => show j.val = 0 + j.val; omega

/-- A bias laid out as one row, read back as that row. -/
theorem rowAt_laidOut (b : S128.Idx → EReal) :
    rowAt (n := 1) (shapeCast S1x128 b shapeCasts_S128_S1x128) 0 = vecAt b := by
  funext k
  refine (shapeCast_addUnit_apply ![128] b shapeCasts_S128_S1x128 (ix2 (0 : Fin 1) k)).trans (congrArg b ?_)
  funext a
  match a with
  | ⟨0, _⟩ => rfl

variable (m : (ℓ : Loc nD τ sig) → Buf (Elt Ideal) ℓ) (ρ : Dev nD → PrngReg)

/-! ## The results -/

/-- The edge update the first region leaves. -/
theorem upd_val (c : Dev nD) :
    (W2 m ρ c (Proc.devRef .tc main_v20_1) : S600000x128.Idx → EReal)
      = edgeUpd (gatherRows (m ((c.tc : Thread nD τ).loc main_arg0)) (m ((c.tc : Thread nD τ).loc main_arg2))) (gatherRows (m ((c.tc : Thread nD τ).loc main_arg0)) (m ((c.tc : Thread nD τ).loc main_arg3))) (m ((c.tc : Thread nD τ).loc main_arg1))
          (matAt (m ((c.tc : Thread nD τ).loc main_arg4)) 0 (by decide)) (matAt (m ((c.tc : Thread nD τ).loc main_arg4)) 128 (by decide)) (matAt (m ((c.tc : Thread nD τ).loc main_arg4)) 256 (by decide))
          (matAt (n := 128) (m ((c.tc : Thread nD τ).loc main_arg6)) 0 (by decide)) (matAt (n := 128) (m ((c.tc : Thread nD τ).loc main_arg8)) 0 (by decide))
          (vecAt (m ((c.tc : Thread nD τ).loc main_arg5))) (vecAt (m ((c.tc : Thread nD τ).loc main_arg7))) (vecAt (m ((c.tc : Thread nD τ).loc main_arg9))) := by
  refine (W2_arr m ρ c 12).trans ?_
  rw [EdgeRegion.upd_arr (V1 m ρ) c, V1_v6, V1_v13, V1_arg1, V1_v14, V1_v15, V1_v16, V1_arg6, V1_arg8, V1_v17, V1_v18, V1_v19,
    matAt_cut384_0, matAt_cut384_128, matAt_cut384_256, rowAt_laidOut, rowAt_laidOut, rowAt_laidOut]

/-- The new edges. -/
theorem edges_val (c : Dev nD) :
    (W4 m ρ c (Proc.devRef .tc main_v20_0) : S600000x128.Idx → EReal)
      = newEdges (gatherRows (m ((c.tc : Thread nD τ).loc main_arg0)) (m ((c.tc : Thread nD τ).loc main_arg2))) (gatherRows (m ((c.tc : Thread nD τ).loc main_arg0)) (m ((c.tc : Thread nD τ).loc main_arg3))) (m ((c.tc : Thread nD τ).loc main_arg1))
          (matAt (m ((c.tc : Thread nD τ).loc main_arg4)) 0 (by decide)) (matAt (m ((c.tc : Thread nD τ).loc main_arg4)) 128 (by decide)) (matAt (m ((c.tc : Thread nD τ).loc main_arg4)) 256 (by decide))
          (matAt (n := 128) (m ((c.tc : Thread nD τ).loc main_arg6)) 0 (by decide)) (matAt (n := 128) (m ((c.tc : Thread nD τ).loc main_arg8)) 0 (by decide))
          (vecAt (m ((c.tc : Thread nD τ).loc main_arg5))) (vecAt (m ((c.tc : Thread nD τ).loc main_arg7))) (vecAt (m ((c.tc : Thread nD τ).loc main_arg9))) := by
  refine (W4_v20_0 m ρ c).trans ((W2_arr m ρ c 11).trans ?_)
  rw [EdgeRegion.edges_arr (V1 m ρ) c, V1_v6, V1_v13, V1_arg1, V1_v14, V1_v15, V1_v16, V1_arg6, V1_arg8, V1_v17, V1_v18, V1_v19,
    matAt_cut384_0, matAt_cut384_128, matAt_cut384_256, rowAt_laidOut, rowAt_laidOut, rowAt_laidOut]

/-- The new nodes. -/
theorem nodes_val (c : Dev nD) :
    (W4 m ρ c (Proc.devRef .tc main_v29) : S100000x128.Idx → EReal)
      = newNodes (m ((c.tc : Thread nD τ).loc main_arg0))
          (aggregate (m ((c.tc : Thread nD τ).loc main_arg3))
            (edgeUpd (gatherRows (m ((c.tc : Thread nD τ).loc main_arg0)) (m ((c.tc : Thread nD τ).loc main_arg2))) (gatherRows (m ((c.tc : Thread nD τ).loc main_arg0)) (m ((c.tc : Thread nD τ).loc main_arg3))) (m ((c.tc : Thread nD τ).loc main_arg1))
              (matAt (m ((c.tc : Thread nD τ).loc main_arg4)) 0 (by decide)) (matAt (m ((c.tc : Thread nD τ).loc main_arg4)) 128 (by decide)) (matAt (m ((c.tc : Thread nD τ).loc main_arg4)) 256 (by decide))
              (matAt (n := 128) (m ((c.tc : Thread nD τ).loc main_arg6)) 0 (by decide)) (matAt (n := 128) (m ((c.tc : Thread nD τ).loc main_arg8)) 0 (by decide))
              (vecAt (m ((c.tc : Thread nD τ).loc main_arg5))) (vecAt (m ((c.tc : Thread nD τ).loc main_arg7))) (vecAt (m ((c.tc : Thread nD τ).loc main_arg9)))))
          (matAt (m ((c.tc : Thread nD τ).loc main_arg10)) 0 (by decide)) (matAt (m ((c.tc : Thread nD τ).loc main_arg10)) 128 (by decide))
          (matAt (n := 128) (m ((c.tc : Thread nD τ).loc main_arg12)) 0 (by decide)) (matAt (n := 128) (m ((c.tc : Thread nD τ).loc main_arg14)) 0 (by decide))
          (vecAt (m ((c.tc : Thread nD τ).loc main_arg11))) (vecAt (m ((c.tc : Thread nD τ).loc main_arg13))) (vecAt (m ((c.tc : Thread nD τ).loc main_arg15))) := by
  refine (W4_arr m ρ c 9).trans ?_
  rw [NodeRegion.nodes_arr (V3 m ρ) c, V3_arg0, V3_v23, upd_val, V3_v24, V3_v25, V3_arg12, V3_arg14, V3_v26, V3_v27, V3_v28,
    matAt_cut256_0, matAt_cut256_128, rowAt_laidOut, rowAt_laidOut, rowAt_laidOut]

end Cert.KernelIdeal.Fold

end
-- ==== Proof.RefValue.lean ====
/-
  The reference program's two results, read one operation at a time at the exact-real instance, are the specification's
  arrays: the product of the 384-column concatenation with the first-layer weights is the sum of the three 128-column
  products (a sum over the joined columns split into its three runs), and likewise the 256-column one for the nodes.
  The two gathers and the scatter-add are carried as they are printed: the kernel's program applies the same ones.
-/
import proofs.«120930_j73684458930837_1_alg».proof.Proof.Gen.ReferenceIdeal.Run
import proofs.«120930_j73684458930837_1_alg».proof.Proof.Gen.ReferenceIdeal.Read
import proofs.«120930_j73684458930837_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.GraphNet

variable (x0 : (⟨S100000x128, .f32⟩ : BufTy).Contents (Elt Ideal)) (x1 : (⟨S600000x128, .f32⟩ : BufTy).Contents (Elt Ideal))
  (x2 x3 : (⟨S600000, .i32⟩ : BufTy).Contents (Elt Ideal)) (x4 : (⟨S384x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S256x128, .f32⟩ : BufTy).Contents (Elt Ideal))
  (x11 : (⟨S128, .f32⟩ : BufTy).Contents (Elt Ideal)) (x12 : (⟨S128x128, .f32⟩ : BufTy).Contents (Elt Ideal))
  (x13 : (⟨S128, .f32⟩ : BufTy).Contents (Elt Ideal)) (x14 : (⟨S128x128, .f32⟩ : BufTy).Contents (Elt Ideal))
  (x15 : (⟨S128, .f32⟩ : BufTy).Contents (Elt Ideal))

/-! ### Small facts about the specification's readers -/

/-- The weight rows that start at row 0 of a 128-row array are the array's own rows. -/
theorem matAt_zero (W : (⟨2, ![128, 128]⟩ : Shape).Idx → EReal) (h : 0 + 128 ≤ 128) (k j : Fin 128) :
    matAt W 0 h k j = W (ix2 k j) :=
  congrArg (fun a : Fin 128 => W (ix2 a j)) (Fin.ext (Nat.zero_add k.val))

/-- The specification's update at the index with coordinates p, j is the edge perceptron of rows p, at column j. -/
theorem edgeUpd_ix2 (sf rf ef : (⟨2, ![600000, 128]⟩ : Shape).Idx → EReal) (Ws Wr We W2 W3 : Mat) (b1 b2 b3 : Row)
    (p : Fin 600000) (j : Fin 128) :
    edgeUpd sf rf ef Ws Wr We W2 W3 b1 b2 b3 (ix2 p j)
      = edgeRow (rowAt sf p) (rowAt rf p) (rowAt ef p) Ws Wr We W2 W3 b1 b2 b3 j := rfl

/-- The specification's new nodes at the index with coordinates p, j. -/
theorem newNodes_ix2 (nf agg : (⟨2, ![100000, 128]⟩ : Shape).Idx → EReal) (Wn Wa W2 W3 : Mat) (b1 b2 b3 : Row)
    (p : Fin 100000) (j : Fin 128) :
    newNodes nf agg Wn Wa W2 W3 b1 b2 b3 (ix2 p j)
      = nodeRow (rowAt nf p) (rowAt agg p) Wn Wa W2 W3 b1 b2 b3 j + nf (ix2 p j) := rfl

/-! ### The three-piece concatenation read at an index: columns 0–127 are the first piece, 128–255 the second,
    256–383 the third -/

section Cat3
variable (s r e : S600000x128.Idx → EReal)
  (h : Shape.Concatenates [S600000x128, S600000x128, S600000x128] S600000x384 1)

theorem cat3_fst (p : Fin 600000) (k : Fin 128) (hk : k.val < 384) :
    concatenate S600000x384 1 [⟨S600000x128, s⟩, ⟨S600000x128, r⟩, ⟨S600000x128, e⟩] h (ix2 p ⟨k.val, hk⟩) = s (ix2 p k) :=
  concatenate_apply_piece (1 : Fin S600000x384.rank) [⟨S600000x128, s⟩, ⟨S600000x128, r⟩, ⟨S600000x128, e⟩] h _
    0 (by show (0 : Nat) < 3; omega) S600000x128 s rfl rfl 0 rfl (ix2 p k)
    (fun b hb => by match b with | ⟨0, _⟩ => rfl | ⟨1, _⟩ => exact absurd rfl hb)
    (Nat.zero_add k.val)

theorem cat3_snd (p : Fin 600000) (k : Fin 128) (hk : 128 + k.val < 384) :
    concatenate S600000x384 1 [⟨S600000x128, s⟩, ⟨S600000x128, r⟩, ⟨S600000x128, e⟩] h (ix2 p ⟨128 + k.val, hk⟩) = r (ix2 p k) :=
  concatenate_apply_piece (1 : Fin S600000x384.rank) [⟨S600000x128, s⟩, ⟨S600000x128, r⟩, ⟨S600000x128, e⟩] h _
    1 (by show (1 : Nat) < 3; omega) S600000x128 r rfl rfl 128 rfl (ix2 p k)
    (fun b hb => by match b with | ⟨0, _⟩ => rfl | ⟨1, _⟩ => exact absurd rfl hb)
    rfl

theorem cat3_thd (p : Fin 600000) (k : Fin 128) (hk : 256 + k.val < 384) :
    concatenate S600000x384 1 [⟨S600000x128, s⟩, ⟨S600000x128, r⟩, ⟨S600000x128, e⟩] h (ix2 p ⟨256 + k.val, hk⟩) = e (ix2 p k) :=
  concatenate_apply_piece (1 : Fin S600000x384.rank) [⟨S600000x128, s⟩, ⟨S600000x128, r⟩, ⟨S600000x128, e⟩] h _
    2 (by show (2 : Nat) < 3; omega) S600000x128 e rfl rfl 256 rfl (ix2 p k)
    (fun b hb => by match b with | ⟨0, _⟩ => rfl | ⟨1, _⟩ => exact absurd rfl hb)
    rfl
end Cat3

/-! ### Index equations of the reference's edge stages -/

theorem lidx15 (p : Fin 600000) (j : Fin 128) (q : Fin 384) : lidx_main_v15 (ix2 p j) q = ix2 p q :=
  funext fun a => by match a with | ⟨0, _⟩ => rfl | ⟨1, _⟩ => rfl

theorem ridx15_fst (p : Fin 600000) (j : Fin 128) (k : Fin 128) (hk : k.val < 384) (hk' : 0 + k.val < 384) :
    ridx_main_v15 (ix2 p j) ⟨k.val, hk⟩ = ix2 (⟨0 + k.val, hk'⟩ : Fin 384) j :=
  funext fun a => by
    match a with
    | ⟨0, _⟩ => exact Fin.ext (Nat.zero_add k.val).symm
    | ⟨1, _⟩ => rfl

theorem ridx15 (p : Fin 600000) (j : Fin 128) (q : Fin 384) : ridx_main_v15 (ix2 p j) q = ix2 q j :=
  funext fun a => by match a with | ⟨0, _⟩ => rfl | ⟨1, _⟩ => rfl

theorem lidx20 (p : Fin 600000) (j k : Fin 128) : lidx_main_v20 (ix2 p j) k = ix2 p k :=
  funext fun a => by match a with | ⟨0, _⟩ => rfl | ⟨1, _⟩ => rfl

theorem ridx20 (p : Fin 600000) (j k : Fin 128) : ridx_main_v20 (ix2 p j) k = ix2 k j :=
  funext fun a => by match a with | ⟨0, _⟩ => rfl | ⟨1, _⟩ => rfl

theorem lidx25 (p : Fin 600000) (j k : Fin 128) : lidx_main_v25 (ix2 p j) k = ix2 p k :=
  funext fun a => by match a with | ⟨0, _⟩ => rfl | ⟨1, _⟩ => rfl

theorem ridx25 (p : Fin 600000) (j k : Fin 128) : ridx_main_v25 (ix2 p j) k = ix2 k j :=
  funext fun a => by match a with | ⟨0, _⟩ => rfl | ⟨1, _⟩ => rfl

/-! ### The biases and the rectifier's threshold, read at an index -/

theorem bias17 (p : Fin 600000) (j : Fin 128) : val_main_v17 (F := Ideal) x5 (ix2 p j) = vecAt x5 j := by
  rw [val_main_v17_apply, val_main_v16_apply]
  exact congrArg x5 (funext fun a => by match a with | ⟨0, _⟩ => rfl)

theorem bias22 (p : Fin 600000) (j : Fin 128) : val_main_v22 (F := Ideal) x7 (ix2 p j) = vecAt x7 j := by
  rw [val_main_v22_apply, val_main_v21_apply]
  exact congrArg x7 (funext fun a => by match a with | ⟨0, _⟩ => rfl)

theorem bias27 (p : Fin 600000) (j : Fin 128) : val_main_v27 (F := Ideal) x9 (ix2 p j) = vecAt x9 j := by
  rw [val_main_v27_apply, val_main_v26_apply]
  exact congrArg x9 (funext fun a => by match a with | ⟨0, _⟩ => rfl)

theorem zero_call0 (i : S600000x128.Idx) : val_main_call0_v0 (F := Ideal) i = zeroF := by
  rw [val_main_call0_v0_apply, val_main_call0_cst_apply]; rfl

theorem zero_call1 (i : S600000x128.Idx) : val_main_call1_v0 (F := Ideal) i = zeroF := by
  rw [val_main_call1_v0_apply, val_main_call1_cst_apply]; rfl

/-! ### The joined 384 columns read at an index -/

theorem v14_fst (p : Fin 600000) (k : Fin 128) (hk : k.val < 384) :
    val_main_v14 (F := Ideal) x0 x1 x2 x3 (ix2 p ⟨k.val, hk⟩) = val_main_v6 (F := Ideal) x0 x2 (ix2 p k) := by
  unfold val_main_v14
  generalize val_main_v6 (F := Ideal) x0 x2 = s
  generalize val_main_v13 (F := Ideal) x0 x3 = r
  exact cat3_fst s r x1 _ p k hk

theorem v14_snd (p : Fin 600000) (k : Fin 128) (hk : 128 + k.val < 384) :
    val_main_v14 (F := Ideal) x0 x1 x2 x3 (ix2 p ⟨128 + k.val, hk⟩) = val_main_v13 (F := Ideal) x0 x3 (ix2 p k) := by
  unfold val_main_v14
  generalize val_main_v6 (F := Ideal) x0 x2 = s
  generalize val_main_v13 (F := Ideal) x0 x3 = r
  exact cat3_snd s r x1 _ p k hk

theorem v14_thd (p : Fin 600000) (k : Fin 128) (hk : 256 + k.val < 384) :
    val_main_v14 (F := Ideal) x0 x1 x2 x3 (ix2 p ⟨256 + k.val, hk⟩) = x1 (ix2 p k) := by
  unfold val_main_v14
  generalize val_main_v6 (F := Ideal) x0 x2 = s
  generalize val_main_v13 (F := Ideal) x0 x3 = r
  exact cat3_thd s r x1 _ p k hk

/-! ### The edge perceptron, layer by layer -/

/-- The first layer's product: the sum over the 384 joined columns is the three 128-column products added up. -/
theorem e15 (p : Fin 600000) (j : Fin 128) :
    val_main_v15 (F := Ideal) x0 x1 x2 x3 x4 (ix2 p j)
      = (dot (rowAt (val_main_v6 (F := Ideal) x0 x2) p) (matAt x4 0 (by decide)) j
          + dot (rowAt (val_main_v13 (F := Ideal) x0 x3) p) (matAt x4 128 (by decide)) j)
        + dot (rowAt x1 p) (matAt x4 256 (by decide)) j := by
  rw [val_main_v15_apply, sum_384]
  refine congrArg₂ (· + ·) (congrArg₂ (· + ·) ?_ ?_) ?_
  · refine Finset.sum_congr rfl fun k _ => ?_
    rw [lidx15, v14_fst, ridx15_fst p j k _ (by have := k.isLt; omega)]
    rfl
  · refine Finset.sum_congr rfl fun k _ => ?_
    rw [lidx15, v14_snd, ridx15]
    rfl
  · refine Finset.sum_congr rfl fun k _ => ?_
    rw [lidx15, v14_thd, ridx15]
    rfl

/-- The edge's first hidden row: the rectified first layer. -/
def eH1 (p : Fin 600000) : Row :=
  relu fun j => ((dot (rowAt (val_main_v6 (F := Ideal) x0 x2) p) (matAt x4 0 (by decide)) j
      + dot (rowAt (val_main_v13 (F := Ideal) x0 x3) p) (matAt x4 128 (by decide)) j)
      + dot (rowAt x1 p) (matAt x4 256 (by decide)) j) + vecAt x5 j

/-- The edge's second hidden row: the rectified second layer. -/
def eH2 (p : Fin 600000) : Row :=
  relu (dense (eH1 x0 x1 x2 x3 x4 x5 p) (matAt (n := 128) x6 0 (by decide)) (vecAt x7))

theorem e19 (p : Fin 600000) (j : Fin 128) :
    val_main_v19 (F := Ideal) x0 x1 x2 x3 x4 x5 (ix2 p j) = eH1 x0 x1 x2 x3 x4 x5 p j := by
  rw [val_main_v19_apply, Ideal.maximumf_def, val_main_v18_apply, Ideal.addf_def, e15, bias17, zero_call0]
  rfl

theorem e20 (p : Fin 600000) (j : Fin 128) :
    val_main_v20 (F := Ideal) x0 x1 x2 x3 x4 x5 x6 (ix2 p j)
      = dot (eH1 x0 x1 x2 x3 x4 x5 p) (matAt (n := 128) x6 0 (by decide)) j := by
  rw [val_main_v20_apply]
  refine Finset.sum_congr rfl fun k _ => ?_
  rw [lidx20, ridx20, e19, matAt_zero]

theorem e24 (p : Fin 600000) (j : Fin 128) :
    val_main_v24 (F := Ideal) x0 x1 x2 x3 x4 x5 x6 x7 (ix2 p j) = eH2 x0 x1 x2 x3 x4 x5 x6 x7 p j := by
  rw [val_main_v24_apply, Ideal.maximumf_def, val_main_v23_apply, Ideal.addf_def, e20, bias22, zero_call1]
  rfl

theorem e25 (p : Fin 600000) (j : Fin 128) :
    val_main_v25 (F := Ideal) x0 x1 x2 x3 x4 x5 x6 x7 x8 (ix2 p j)
      = dot (eH2 x0 x1 x2 x3 x4 x5 x6 x7 p) (matAt (n := 128) x8 0 (by decide)) j := by
  rw [val_main_v25_apply]
  refine Finset.sum_congr rfl fun k _ => ?_
  rw [lidx25, ridx25, e24, matAt_zero]

theorem e28 (p : Fin 600000) (j : Fin 128) :
    val_main_v28 (F := Ideal) x0 x1 x2 x3 x4 x5 x6 x7 x8 x9 (ix2 p j)
      = edgeRow (rowAt (val_main_v6 (F := Ideal) x0 x2) p) (rowAt (val_main_v13 (F := Ideal) x0 x3) p) (rowAt x1 p)
          (matAt x4 0 (by decide)) (matAt x4 128 (by decide)) (matAt x4 256 (by decide))
          (matAt (n := 128) x6 0 (by decide)) (matAt (n := 128) x8 0 (by decide)) (vecAt x5) (vecAt x7) (vecAt x9) j := by
  rw [val_main_v28_apply, Ideal.addf_def, e25, bias27]
  rfl

/-! ### The two-piece concatenation read at an index: columns 0–127 are the first piece, 128–255 the second -/

section Cat2
variable (n a : S100000x128.Idx → EReal) (h : Shape.Concatenates [S100000x128, S100000x128] S100000x256 1)

theorem cat2_fst (p : Fin 100000) (k : Fin 128) (hk : k.val < 256) :
    concatenate S100000x256 1 [⟨S100000x128, n⟩, ⟨S100000x128, a⟩] h (ix2 p ⟨k.val, hk⟩) = n (ix2 p k) :=
  concatenate_apply_piece (1 : Fin S100000x256.rank) [⟨S100000x128, n⟩, ⟨S100000x128, a⟩] h _
    0 (by show (0 : Nat) < 2; omega) S100000x128 n rfl rfl 0 rfl (ix2 p k)
    (fun b hb => by match b with | ⟨0, _⟩ => rfl | ⟨1, _⟩ => exact absurd rfl hb)
    (Nat.zero_add k.val)

theorem cat2_snd (p : Fin 100000) (k : Fin 128) (hk : 128 + k.val < 256) :
    concatenate S100000x256 1 [⟨S100000x128, n⟩, ⟨S100000x128, a⟩] h (ix2 p ⟨128 + k.val, hk⟩) = a (ix2 p k) :=
  concatenate_apply_piece (1 : Fin S100000x256.rank) [⟨S100000x128, n⟩, ⟨S100000x128, a⟩] h _
    1 (by show (1 : Nat) < 2; omega) S100000x128 a rfl rfl 128 rfl (ix2 p k)
    (fun b hb => by match b with | ⟨0, _⟩ => rfl | ⟨1, _⟩ => exact absurd rfl hb)
    rfl
end Cat2

/-! ### Index equations of the reference's node stages -/

theorem lidx33 (p : Fin 100000) (j : Fin 128) (q : Fin 256) : lidx_main_v33 (ix2 p j) q = ix2 p q :=
  funext fun a => by match a with | ⟨0, _⟩ => rfl | ⟨1, _⟩ => rfl

theorem ridx33_fst (p : Fin 100000) (j : Fin 128) (k : Fin 128) (hk : k.val < 256) (hk' : 0 + k.val < 256) :
    ridx_main_v33 (ix2 p j) ⟨k.val, hk⟩ = ix2 (⟨0 + k.val, hk'⟩ : Fin 256) j :=
  funext fun a => by
    match a with
    | ⟨0, _⟩ => exact Fin.ext (Nat.zero_add k.val).symm
    | ⟨1, _⟩ => rfl

theorem ridx33 (p : Fin 100000) (j : Fin 128) (q : Fin 256) : ridx_main_v33 (ix2 p j) q = ix2 q j :=
  funext fun a => by match a with | ⟨0, _⟩ => rfl | ⟨1, _⟩ => rfl

theorem lidx38 (p : Fin 100000) (j k : Fin 128) : lidx_main_v38 (ix2 p j) k = ix2 p k :=
  funext fun a => by match a with | ⟨0, _⟩ => rfl | ⟨1, _⟩ => rfl

theorem ridx38 (p : Fin 100000) (j k : Fin 128) : ridx_main_v38 (ix2 p j) k = ix2 k j :=
  funext fun a => by match a with | ⟨0, _⟩ => rfl | ⟨1, _⟩ => rfl

theorem lidx43 (p : Fin 100000) (j k : Fin 128) : lidx_main_v43 (ix2 p j) k = ix2 p k :=
  funext fun a => by match a with | ⟨0, _⟩ => rfl | ⟨1, _⟩ => rfl

theorem ridx43 (p : Fin 100000) (j k : Fin 128) : ridx_main_v43 (ix2 p j) k = ix2 k j :=
  funext fun a => by match a with | ⟨0, _⟩ => rfl | ⟨1, _⟩ => rfl

/-! ### The node biases and the rectifier's threshold, read at an index -/

theorem bias35 (p : Fin 100000) (j : Fin 128) : val_main_v35 (F := Ideal) x11 (ix2 p j) = vecAt x11 j := by
  rw [val_main_v35_apply, val_main_v34_apply]
  exact congrArg x11 (funext fun a => by match a with | ⟨0, _⟩ => rfl)

theorem bias40 (p : Fin 100000) (j : Fin 128) : val_main_v40 (F := Ideal) x13 (ix2 p j) = vecAt x13 j := by
  rw [val_main_v40_apply, val_main_v39_apply]
  exact congrArg x13 (funext fun a => by match a with | ⟨0, _⟩ => rfl)

theorem bias45 (p : Fin 100000) (j : Fin 128) : val_main_v45 (F := Ideal) x15 (ix2 p j) = vecAt x15 j := by
  rw [val_main_v45_apply, val_main_v44_apply]
  exact congrArg x15 (funext fun a => by match a with | ⟨0, _⟩ => rfl)

theorem zero_call2 (i : S100000x128.Idx) : val_main_call2_v0 (F := Ideal) i = zeroF := by
  rw [val_main_call2_v0_apply, val_main_call2_cst_apply]; rfl

theorem zero_call3 (i : S100000x128.Idx) : val_main_call3_v0 (F := Ideal) i = zeroF := by
  rw [val_main_call3_v0_apply, val_main_call3_cst_apply]; rfl

/-! ### The joined 256 columns read at an index -/

theorem v32_fst (p : Fin 100000) (k : Fin 128) (hk : k.val < 256) :
    val_main_v32 (F := Ideal) x0 x1 x2 x3 x4 x5 x6 x7 x8 x9 (ix2 p ⟨k.val, hk⟩) = x0 (ix2 p k) := by
  unfold val_main_v32
  generalize val_main_v31 (F := Ideal) x0 x1 x2 x3 x4 x5 x6 x7 x8 x9 = a
  exact cat2_fst x0 a _ p k hk

theorem v32_snd (p : Fin 100000) (k : Fin 128) (hk : 128 + k.val < 256) :
    val_main_v32 (F := Ideal) x0 x1 x2 x3 x4 x5 x6 x7 x8 x9 (ix2 p ⟨128 + k.val, hk⟩)
      = val_main_v31 (F := Ideal) x0 x1 x2 x3 x4 x5 x6 x7 x8 x9 (ix2 p k) := by
  unfold val_main_v32
  generalize val_main_v31 (F := Ideal) x0 x1 x2 x3 x4 x5 x6 x7 x8 x9 = a
  exact cat2_snd x0 a _ p k hk

/-! ### The node perceptron, layer by layer -/

/-- The first layer's product: the sum over the 256 joined columns is the two 128-column products added up. -/
theorem n33 (p : Fin 100000) (j : Fin 128) :
    val_main_v33 (F := Ideal) x0 x1 x2 x3 x4 x5 x6 x7 x8 x9 x10 (ix2 p j)
      = dot (rowAt x0 p) (matAt x10 0 (by decide)) j
        + dot (rowAt (val_main_v31 (F := Ideal) x0 x1 x2 x3 x4 x5 x6 x7 x8 x9) p) (matAt x10 128 (by decide)) j := by
  rw [val_main_v33_apply, sum_256]
  refine congrArg₂ (· + ·) ?_ ?_
  · refine Finset.sum_congr rfl fun k _ => ?_
    rw [lidx33, v32_fst, ridx33_fst p j k _ (by have := k.isLt; omega)]
    rfl
  · refine Finset.sum_congr rfl fun k _ => ?_
    rw [lidx33, v32_snd, ridx33]
    rfl

/-- The node's first hidden row: the rectified first layer. -/
def nH1 (p : Fin 100000) : Row :=
  relu fun j => (dot (rowAt x0 p) (matAt x10 0 (by decide)) j
      + dot (rowAt (val_main_v31 (F := Ideal) x0 x1 x2 x3 x4 x5 x6 x7 x8 x9) p) (matAt x10 128 (by decide)) j) + vecAt x11 j

/-- The node's second hidden row: the rectified second layer. -/
def nH2 (p : Fin 100000) : Row :=
  relu (dense (nH1 x0 x1 x2 x3 x4 x5 x6 x7 x8 x9 x10 x11 p) (matAt (n := 128) x12 0 (by decide)) (vecAt x13))

theorem n37 (p : Fin 100000) (j : Fin 128) :
    val_main_v37 (F := Ideal) x0 x1 x2 x3 x4 x5 x6 x7 x8 x9 x10 x11 (ix2 p j)
      = nH1 x0 x1 x2 x3 x4 x5 x6 x7 x8 x9 x10 x11 p j := by
  rw [val_main_v37_apply, Ideal.maximumf_def, val_main_v36_apply, Ideal.addf_def, n33, bias35, zero_call2]
  rfl

theorem n38 (p : Fin 100000) (j : Fin 128) :
    val_main_v38 (F := Ideal) x0 x1 x2 x3 x4 x5 x6 x7 x8 x9 x10 x11 x12 (ix2 p j)
      = dot (nH1 x0 x1 x2 x3 x4 x5 x6 x7 x8 x9 x10 x11 p) (matAt (n := 128) x12 0 (by decide)) j := by
  rw [val_main_v38_apply]
  refine Finset.sum_congr rfl fun k _ => ?_
  rw [lidx38, ridx38, n37, matAt_zero]

theorem n42 (p : Fin 100000) (j : Fin 128) :
    val_main_v42 (F := Ideal) x0 x1 x2 x3 x4 x5 x6 x7 x8 x9 x10 x11 x12 x13 (ix2 p j)
      = nH2 x0 x1 x2 x3 x4 x5 x6 x7 x8 x9 x10 x11 x12 x13 p j := by
  rw [val_main_v42_apply, Ideal.maximumf_def, val_main_v41_apply, Ideal.addf_def, n38, bias40, zero_call3]
  rfl

theorem n43 (p : Fin 100000) (j : Fin 128) :
    val_main_v43 (F := Ideal) x0 x1 x2 x3 x4 x5 x6 x7 x8 x9 x10 x11 x12 x13 x14 (ix2 p j)
      = dot (nH2 x0 x1 x2 x3 x4 x5 x6 x7 x8 x9 x10 x11 x12 x13 p) (matAt (n := 128) x14 0 (by decide)) j := by
  rw [val_main_v43_apply]
  refine Finset.sum_congr rfl fun k _ => ?_
  rw [lidx43, ridx43, n42, matAt_zero]

theorem n47 (p : Fin 100000) (j : Fin 128) :
    val_main_v47 (F := Ideal) x0 x1 x2 x3 x4 x5 x6 x7 x8 x9 x10 x11 x12 x13 x14 x15 (ix2 p j)
      = nodeRow (rowAt x0 p) (rowAt (val_main_v31 (F := Ideal) x0 x1 x2 x3 x4 x5 x6 x7 x8 x9) p)
          (matAt x10 0 (by decide)) (matAt x10 128 (by decide))
          (matAt (n := 128) x12 0 (by decide)) (matAt (n := 128) x14 0 (by decide)) (vecAt x11) (vecAt x13) (vecAt x15) j
        + x0 (ix2 p j) := by
  rw [val_main_v47_apply, Ideal.addf_def, val_main_v46_apply, Ideal.addf_def, n43, bias45]
  rfl

/-- The reference's edge update before the residual (`%28`) is the specification's update of the two gathered arrays and
    the edge features. -/
theorem upd_eq :
    val_main_v28 (F := Ideal) x0 x1 x2 x3 x4 x5 x6 x7 x8 x9
      = edgeUpd (val_main_v6 (F := Ideal) x0 x2) (val_main_v13 (F := Ideal) x0 x3) x1
          (matAt x4 0 (by decide)) (matAt x4 128 (by decide)) (matAt x4 256 (by decide))
          (matAt (n := 128) x6 0 (by decide)) (matAt (n := 128) x8 0 (by decide)) (vecAt x5) (vecAt x7) (vecAt x9) := by
  funext i
  obtain ⟨p, j, rfl⟩ : ∃ (p : Fin 600000) (j : Fin 128), i = ix2 p j := ⟨i 0, i 1, eq_ix2 i⟩
  rw [edgeUpd_ix2]
  exact e28 x0 x1 x2 x3 x4 x5 x6 x7 x8 x9 p j

/-- The reference's new edges (`%48`). -/
theorem edges_eq :
    val_main_v48 (F := Ideal) x0 x1 x2 x3 x4 x5 x6 x7 x8 x9
      = newEdges (val_main_v6 (F := Ideal) x0 x2) (val_main_v13 (F := Ideal) x0 x3) x1
          (matAt x4 0 (by decide)) (matAt x4 128 (by decide)) (matAt x4 256 (by decide))
          (matAt (n := 128) x6 0 (by decide)) (matAt (n := 128) x8 0 (by decide)) (vecAt x5) (vecAt x7) (vecAt x9) := by
  funext i
  rw [val_main_v48_apply, Ideal.addf_def, upd_eq]
  rfl

/-- The reference's new nodes (`%47`), over its aggregate `%31` (the scatter-add of the update). -/
theorem nodes_eq :
    val_main_v47 (F := Ideal) x0 x1 x2 x3 x4 x5 x6 x7 x8 x9 x10 x11 x12 x13 x14 x15
      = newNodes x0 (val_main_v31 (F := Ideal) x0 x1 x2 x3 x4 x5 x6 x7 x8 x9)
          (matAt x10 0 (by decide)) (matAt x10 128 (by decide))
          (matAt (n := 128) x12 0 (by decide)) (matAt (n := 128) x14 0 (by decide)) (vecAt x11) (vecAt x13) (vecAt x15) := by
  funext i
  obtain ⟨p, j, rfl⟩ : ∃ (p : Fin 100000) (j : Fin 128), i = ix2 p j := ⟨i 0, i 1, eq_ix2 i⟩
  rw [newNodes_ix2]
  exact n47 x0 x1 x2 x3 x4 x5 x6 x7 x8 x9 x10 x11 x12 x13 x14 x15 p j

end Cert.ReferenceIdeal.RefValue

end
-- ==== Proof.Bridge.lean ====
/-
  The two programs side by side.  Both apply the same host operations around their arithmetic — the same two gathers of
  node rows (after the same treatment of negative index words) and the same scatter-add of the edge update onto the
  nodes — so those are carried as the same functions of the same arguments, never opened; with them, the reference's two
  results are the specification's arrays the kernel program's results were shown to be.
-/
import proofs.«120930_j73684458930837_1_alg».proof.Proof.RefValue
import proofs.«120930_j73684458930837_1_alg».proof.Proof.HostEntry0

noncomputable section

namespace Cert.Bridge

open Idealize.ShloMosaic Idealize.ShloMosaic.TcCoe Idealize.SL.Sem
open Cert.ReferenceIdeal Cert.ReferenceIdeal.Read Cert.GraphNet
open Cert.KernelIdeal.Fold (gatherRows aggregate)

variable (x0 : (⟨S100000x128, .f32⟩ : BufTy).Contents (Elt Ideal)) (x1 : (⟨S600000x128, .f32⟩ : BufTy).Contents (Elt Ideal))
  (x2 x3 : (⟨S600000, .i32⟩ : BufTy).Contents (Elt Ideal)) (x4 : (⟨S384x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S256x128, .f32⟩ : BufTy).Contents (Elt Ideal))
  (x11 : (⟨S128, .f32⟩ : BufTy).Contents (Elt Ideal)) (x12 : (⟨S128x128, .f32⟩ : BufTy).Contents (Elt Ideal))
  (x13 : (⟨S128, .f32⟩ : BufTy).Contents (Elt Ideal)) (x14 : (⟨S128x128, .f32⟩ : BufTy).Contents (Elt Ideal))
  (x15 : (⟨S128, .f32⟩ : BufTy).Contents (Elt Ideal))

/-- The reference's gather of sender rows is the kernel program's. -/
theorem senders_eq : val_main_v6 (F := Ideal) x0 x2 = gatherRows x0 x2 := rfl
/-- The reference's gather of receiver rows is the kernel program's. -/
theorem receivers_eq : val_main_v13 (F := Ideal) x0 x3 = gatherRows x0 x3 := rfl
/-- The reference's scatter-add of its edge update is the kernel program's aggregate of it. -/
theorem aggregate_eq :
    val_main_v31 (F := Ideal) x0 x1 x2 x3 x4 x5 x6 x7 x8 x9 = aggregate x3 (val_main_v28 (F := Ideal) x0 x1 x2 x3 x4 x5 x6 x7 x8 x9) := rfl

/-- The reference's new edges, over the shared gathers. -/
theorem ref_edges :
    val_main_v48 (F := Ideal) x0 x1 x2 x3 x4 x5 x6 x7 x8 x9
      = newEdges (gatherRows x0 x2) (gatherRows x0 x3) x1
          (matAt x4 0 (by decide)) (matAt x4 128 (by decide)) (matAt x4 256 (by decide))
          (matAt (n := 128) x6 0 (by decide)) (matAt (n := 128) x8 0 (by decide)) (vecAt x5) (vecAt x7) (vecAt x9) := by
  rw [RefValue.edges_eq, senders_eq, receivers_eq]

/-- The reference's new nodes, over the shared gathers and the shared aggregate. -/
theorem ref_nodes :
    val_main_v47 (F := Ideal) x0 x1 x2 x3 x4 x5 x6 x7 x8 x9 x10 x11 x12 x13 x14 x15
      = newNodes x0
          (aggregate x3
            (edgeUpd (gatherRows x0 x2) (gatherRows x0 x3) x1
              (matAt x4 0 (by decide)) (matAt x4 128 (by decide)) (matAt x4 256 (by decide))
              (matAt (n := 128) x6 0 (by decide)) (matAt (n := 128) x8 0 (by decide)) (vecAt x5) (vecAt x7) (vecAt x9)))
          (matAt x10 0 (by decide)) (matAt x10 128 (by decide))
          (matAt (n := 128) x12 0 (by decide)) (matAt (n := 128) x14 0 (by decide)) (vecAt x11) (vecAt x13) (vecAt x15) := by
  rw [RefValue.nodes_eq, aggregate_eq, RefValue.upd_eq, senders_eq, receivers_eq]

end Cert.Bridge

end
-- ==== Proof.lean ====
/-
  A graph-network block: every edge's features are updated by a three-layer perceptron of its sender's node features, its
  receiver's node features and its own features; every node's features are updated by a three-layer perceptron of its own
  features and the sum of the updates of the edges that point at it; both add their input back.

  The kernel program gathers the sender and receiver rows on the host, runs the edge perceptron in one tiled region (the
  384-column first layer as three 128-column products), scatter-adds the update on the host, and runs the node perceptron
  in a second tiled region (its 256-column first layer as two products).  The reference joins the columns and multiplies
  once per layer.  At the exact-real instance the narrowing of the products' operands is the identity, a product into a
  zero accumulator is the host's product, and a sum over joined columns is the sum of the sums over its runs — addition
  on the extended reals is a commutative monoid, so this needs no finiteness.  The gathers and the scatter-add are the
  same functions of the same arguments in both programs and are never opened.

  The frames of the two kernel programs are the generated ones; the reference's frame is its generated run with the
  results dropped; the idealization's ledger is empty; and for the value claim the kernel program's run is restated with
  its two result buffers named (the last segment boundary's contents), those contents are read back region by region to
  the specification's arrays, and the reference's run is read to the same arrays.
-/
import proofs.«120930_j73684458930837_1_alg».proof.Defs
import proofs.«120930_j73684458930837_1_alg».proof.Proof.Gen.Kernel
import proofs.«120930_j73684458930837_1_alg».proof.Proof.Gen.Kernel.Frame
import proofs.«120930_j73684458930837_1_alg».proof.Proof.Gen.KernelIdeal
import proofs.«120930_j73684458930837_1_alg».proof.Proof.Gen.KernelIdeal.Frame
import proofs.«120930_j73684458930837_1_alg».proof.Proof.Gen.ReferenceIdeal
import proofs.«120930_j73684458930837_1_alg».proof.Proof.Gen.ReferenceIdeal.Run
import proofs.«120930_j73684458930837_1_alg».proof.Proof.Gen.Pre_finite_inputs
import proofs.«120930_j73684458930837_1_alg».proof.Proof.KRun
import proofs.«120930_j73684458930837_1_alg».proof.Proof.KFold
import proofs.«120930_j73684458930837_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with every argument as launched: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments, end with the same new nodes and the same new edges: the
    kernel program's are the last boundary's contents of its two result buffers, which are the specification's arrays of
    the launch memory; the reference's run ends at terms that are the same arrays. -/
theorem algebraic : Cert.algebraic_KernelIdeal_ReferenceIdeal := by
  intro m ρ m' ρ' _ hagree
  refine ⟨fun c => Cert.KernelIdeal.Gen.W4 m ρ c (Proc.devRef .tc Cert.KernelIdeal.main_v29),
    fun c => Cert.KernelIdeal.Gen.W4 m ρ c (Proc.devRef .tc Cert.KernelIdeal.main_v20_0),
    Cert.KernelIdeal.Run.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact ((Cert.ReferenceIdeal.Read.val_main_v47_eq _ _ _ _ _ _ _ _ _ _ _ _ _ _ _ _).trans (Cert.Bridge.ref_nodes _ _ _ _ _ _ _ _ _ _ _ _ _ _ _ _)).trans
      (Cert.KernelIdeal.Fold.nodes_val m ρ c).symm
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    exact ((Cert.ReferenceIdeal.Read.val_main_v48_eq _ _ _ _ _ _ _ _ _ _).trans (Cert.Bridge.ref_edges _ _ _ _ _ _ _ _ _ _)).trans
      (Cert.KernelIdeal.Fold.edges_val m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
